-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S4096 : Shape := ⟨1, ![4096]⟩
abbrev S14336x4096 : Shape := ⟨2, ![14336, 4096]⟩
abbrev S4096x14336 : Shape := ⟨2, ![4096, 14336]⟩
abbrev S14336 : Shape := ⟨1, ![14336]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S14336 : S_.BroadcastsInDim S14336 (![] : Fin 0 → Fin S14336.rank)
  reducesTo_S14336_S_d0 : S14336.ReducesTo [0] S_

variable [Facts]

def fn_part2 {F : FTy → Type} [FloatOps F] (main_arg10 : FVec F S4096 .f32) (main_arg11 : FVec F S4096 .f32) (main_arg12 : FVec F S14336 .f32) (main_v33 : IVec S_ 1) : IVec S_ 1 :=
  let main_v34 : FVec F S4096 .f32 := Host.absf main_arg10
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg11
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S14336 .f32 := Host.absf main_arg12
  let main_cst_16 : FVec F S_ .f32 := constant S_ .f32 0x7F800000#32
  let main_v45 : FVec F S14336 .f32 := broadcastInDim S14336 ![] bcast_S_S14336 main_cst_16
  let main_v46 : IVec S14336 1 := cmpf .olt main_v44 main_v45
  let main_c_17 : IVec S_ 1 := constantI S_ 1 1#1
  let main_v47 : IVec S_ 1 := (fun x v => Host.reduce IntOp.andi x v reducesTo_S14336_S_d0 h_S_) main_v46 main_c_17
  let main_v48 : IVec S_ 1 := andi main_v43 main_v47
  main_v48

def fn_part1 {F : FTy → Type} [FloatOps F] (main_arg7 : FVec F S14336 .f32) (main_arg8 : FVec F S4096 .f32) (main_arg9 : FVec F S14336 .f32) (main_arg10 : FVec F S4096 .f32) (main_arg11 : FVec F S4096 .f32) (main_arg12 : FVec F S14336 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S14336 .f32 := Host.absf main_arg7
  let main_cst_6 : FVec F S_ .f32 := constant S_ .f32 0x7F800000#32
  let main_v20 : FVec F S14336 .f32 := broadcastInDim S14336 ![] bcast_S_S14336 main_cst_6
  let main_v21 : IVec S14336 1 := cmpf .olt main_v19 main_v20
  let main_c_7 : IVec S_ 1 := constantI S_ 1 1#1
  let main_v22 : IVec S_ 1 := (fun x v => Host.reduce IntOp.andi x v reducesTo_S14336_S_d0 h_S_) main_v21 main_c_7
  let main_v23 : IVec S_ 1 := andi main_v18 main_v22
  let main_v24 : FVec F S4096 .f32 := Host.absf main_arg8
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S14336 .f32 := Host.absf main_arg9
  let main_cst_10 : FVec F S_ .f32 := constant S_ .f32 0x7F800000#32
  let main_v30 : FVec F S14336 .f32 := broadcastInDim S14336 ![] bcast_S_S14336 main_cst_10
  let main_v31 : IVec S14336 1 := cmpf .olt main_v29 main_v30
  let main_c_11 : IVec S_ 1 := constantI S_ 1 1#1
  let main_v32 : IVec S_ 1 := (fun x v => Host.reduce IntOp.andi x v reducesTo_S14336_S_d0 h_S_) main_v31 main_c_11
  let main_v33 : IVec S_ 1 := andi main_v28 main_v32
  fn_part2 (F := F) main_arg10 main_arg11 main_arg12 main_v33

def fn {F : FTy → Type} [FloatOps F] (main_arg0 : FVec F S64x4096 .f32) (main_arg1 : FVec F S4096 .f32) (main_arg2 : FVec F S4096 .f32) (main_arg3 : FVec F S4096 .f32) (main_arg4 : IVec S14336x4096 32) (main_arg5 : IVec S14336x4096 32) (main_arg6 : IVec S4096x14336 32) (main_arg7 : FVec F S14336 .f32) (main_arg8 : FVec F S4096 .f32) (main_arg9 : FVec F S14336 .f32) (main_arg10 : FVec F S4096 .f32) (main_arg11 : FVec F S4096 .f32) (main_arg12 : FVec F S14336 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg7 main_arg8 main_arg9 main_arg10 main_arg11 main_arg12 main_v13 main_v16
-- ==== Kernel.lean ====
abbrev S64x4096 : Shape := ⟨2, ![64, 4096]⟩
abbrev S4096 : Shape := ⟨1, ![4096]⟩
abbrev S14336x4096 : Shape := ⟨2, ![14336, 4096]⟩
abbrev S4096x14336 : Shape := ⟨2, ![4096, 14336]⟩
abbrev S14336 : Shape := ⟨1, ![14336]⟩
abbrev S_ : Shape := ⟨0, ![]⟩
abbrev S14336x4096x1 : Shape := ⟨3, ![14336, 4096, 1]⟩
abbrev S14336x1 : Shape := ⟨2, ![14336, 1]⟩
abbrev S1x4096 : Shape := ⟨2, ![1, 4096]⟩
abbrev S4096x14336x1 : Shape := ⟨3, ![4096, 14336, 1]⟩
abbrev S4096x1 : Shape := ⟨2, ![4096, 1]⟩
abbrev S1x14336 : Shape := ⟨2, ![1, 14336]⟩
abbrev S64x14336 : Shape := ⟨2, ![64, 14336]⟩
abbrev S512x4096 : Shape := ⟨2, ![512, 4096]⟩
abbrev S64x512 : Shape := ⟨2, ![64, 512]⟩
abbrev S4096x512 : Shape := ⟨2, ![4096, 512]⟩

abbrev nBuf : Space → Nat
  | .hbm => 73
  | .vmem => 13
  | .smem => 0
  | _ => 0

abbrev bufTy : (tb : Table) → Fin (tcTables nBuf tb) → BufTy
  | .hbm, ⟨0, _⟩ => ⟨S64x4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S14336x4096, .i32⟩
  | .hbm, ⟨5, _⟩ => ⟨S14336x4096, .i32⟩
  | .hbm, ⟨6, _⟩ => ⟨S4096x14336, .i32⟩
  | .hbm, ⟨7, _⟩ => ⟨S14336, .f32⟩
  | .hbm, ⟨8, _⟩ => ⟨S4096, .f32⟩
  | .hbm, ⟨9, _⟩ => ⟨S14336, .f32⟩
  | .hbm, ⟨10, _⟩ => ⟨S4096, .f32⟩
  | .hbm, ⟨11, _⟩ => ⟨S4096, .f32⟩
  | .hbm, ⟨12, _⟩ => ⟨S14336, .f32⟩
  | .hbm, ⟨13, _⟩ => ⟨S_, .i32⟩
  | .hbm, ⟨14, _⟩ => ⟨S14336x4096, .i32⟩
  | .hbm, ⟨15, _⟩ => ⟨S14336x4096, .i1⟩
  | .hbm, ⟨16, _⟩ => ⟨S_, .i32⟩
  | .hbm, ⟨17, _⟩ => ⟨S14336x4096, .i32⟩
  | .hbm, ⟨18, _⟩ => ⟨S14336x4096, .i32⟩
  | .hbm, ⟨19, _⟩ => ⟨S14336x4096, .i32⟩
  | .hbm, ⟨20, _⟩ => ⟨S14336x4096x1, .i32⟩
  | .hbm, ⟨21, _⟩ => ⟨S14336x4096, .f32⟩
  | .hbm, ⟨22, _⟩ => ⟨S14336x1, .f32⟩
  | .hbm, ⟨23, _⟩ => ⟨S14336x4096, .f32⟩
  | .hbm, ⟨24, _⟩ => ⟨S14336x4096, .f32⟩
  | .hbm, ⟨25, _⟩ => ⟨S1x4096, .f32⟩
  | .hbm, ⟨26, _⟩ => ⟨S14336x4096, .f32⟩
  | .hbm, ⟨27, _⟩ => ⟨S14336x4096, .f32⟩
  | .hbm, ⟨28, _⟩ => ⟨S_, .f32⟩
  | .hbm, ⟨29, _⟩ => ⟨S14336x4096, .f32⟩
  | .hbm, ⟨30, _⟩ => ⟨S14336x4096, .f32⟩
  | .hbm, ⟨31, _⟩ => ⟨S14336x4096, .bf16⟩
  | .hbm, ⟨32, _⟩ => ⟨S_, .i32⟩
  | .hbm, ⟨33, _⟩ => ⟨S14336x4096, .i32⟩
  | .hbm, ⟨34, _⟩ => ⟨S14336x4096, .i1⟩
  | .hbm, ⟨35, _⟩ => ⟨S_, .i32⟩
  | .hbm, ⟨36, _⟩ => ⟨S14336x4096, .i32⟩
  | .hbm, ⟨37, _⟩ => ⟨S14336x4096, .i32⟩
  | .hbm, ⟨38, _⟩ => ⟨S14336x4096, .i32⟩
  | .hbm, ⟨39, _⟩ => ⟨S14336x4096x1, .i32⟩
  | .hbm, ⟨40, _⟩ => ⟨S14336x4096, .f32⟩
  | .hbm, ⟨41, _⟩ => ⟨S14336x1, .f32⟩
  | .hbm, ⟨42, _⟩ => ⟨S14336x4096, .f32⟩
  | .hbm, ⟨43, _⟩ => ⟨S14336x4096, .f32⟩
  | .hbm, ⟨44, _⟩ => ⟨S1x4096, .f32⟩
  | .hbm, ⟨45, _⟩ => ⟨S14336x4096, .f32⟩
  | .hbm, ⟨46, _⟩ => ⟨S14336x4096, .f32⟩
  | .hbm, ⟨47, _⟩ => ⟨S_, .f32⟩
  | .hbm, ⟨48, _⟩ => ⟨S14336x4096, .f32⟩
  | .hbm, ⟨49, _⟩ => ⟨S14336x4096, .f32⟩
  | .hbm, ⟨50, _⟩ => ⟨S14336x4096, .bf16⟩
  | .hbm, ⟨51, _⟩ => ⟨S_, .i32⟩
  | .hbm, ⟨52, _⟩ => ⟨S4096x14336, .i32⟩
  | .hbm, ⟨53, _⟩ => ⟨S4096x14336, .i1⟩
  | .hbm, ⟨54, _⟩ => ⟨S_, .i32⟩
  | .hbm, ⟨55, _⟩ => ⟨S4096x14336, .i32⟩
  | .hbm, ⟨56, _⟩ => ⟨S4096x14336, .i32⟩
  | .hbm, ⟨57, _⟩ => ⟨S4096x14336, .i32⟩
  | .hbm, ⟨58, _⟩ => ⟨S4096x14336x1, .i32⟩
  | .hbm, ⟨59, _⟩ => ⟨S4096x14336, .f32⟩
  | .hbm, ⟨60, _⟩ => ⟨S4096x1, .f32⟩
  | .hbm, ⟨61, _⟩ => ⟨S4096x14336, .f32⟩
  | .hbm, ⟨62, _⟩ => ⟨S4096x14336, .f32⟩
  | .hbm, ⟨63, _⟩ => ⟨S1x14336, .f32⟩
  | .hbm, ⟨64, _⟩ => ⟨S4096x14336, .f32⟩
  | .hbm, ⟨65, _⟩ => ⟨S4096x14336, .f32⟩
  | .hbm, ⟨66, _⟩ => ⟨S_, .f32⟩
  | .hbm, ⟨67, _⟩ => ⟨S4096x14336, .f32⟩
  | .hbm, ⟨68, _⟩ => ⟨S4096x14336, .f32⟩
  | .hbm, ⟨69, _⟩ => ⟨S4096x14336, .bf16⟩
  | .hbm, ⟨70, _⟩ => ⟨S64x4096, .bf16⟩
  | .hbm, ⟨71, _⟩ => ⟨S64x14336, .bf16⟩
  | .hbm, ⟨72, _⟩ => ⟨S64x4096, .f32⟩
  | .local _ .vmem, ⟨0, _⟩ => ⟨S64x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S64x512, .bf16⟩
  | .local _ .vmem, ⟨6, _⟩ => ⟨S64x512, .bf16⟩
  | .local _ .vmem, ⟨7, _⟩ => ⟨S64x512, .bf16⟩
  | .local _ .vmem, ⟨8, _⟩ => ⟨S64x512, .bf16⟩
  | .local _ .vmem, ⟨9, _⟩ => ⟨S4096x512, .bf16⟩
  | .local _ .vmem, ⟨10, _⟩ => ⟨S4096x512, .bf16⟩
  | .local _ .vmem, ⟨11, _⟩ => ⟨S64x4096, .f32⟩
  | .local _ .vmem, ⟨12, _⟩ => ⟨S64x4096, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![28], ![false]⟩

def k1_cond2 (i : grid1.Coords) : BitVec 1 :=
  let arg0 : BitVec 32 := BitVec.ofNat 32 (i 0).val
  let c27_i32 : BitVec 32 := 27#32
  let v13 : BitVec 1 := Scalar.cmpi .eq arg0 c27_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  bcast_S_S14336x4096 : S_.BroadcastsInDim S14336x4096 (![] : Fin 0 → Fin S14336x4096.rank)
  bcast_S14336x4096_S14336x4096x1_0_1 : S14336x4096.BroadcastsInDim S14336x4096x1 (![0, 1] : Fin 2 → Fin S14336x4096x1.rank)
  bcast_S14336_S14336x1_0 : S14336.BroadcastsInDim S14336x1 (![0] : Fin 1 → Fin S14336x1.rank)
  bcast_S14336x1_S14336x4096_0_1 : S14336x1.BroadcastsInDim S14336x4096 (![0, 1] : Fin 2 → Fin S14336x4096.rank)
  bcast_S4096_S1x4096_1 : S4096.BroadcastsInDim S1x4096 (![1] : Fin 1 → Fin S1x4096.rank)
  bcast_S1x4096_S14336x4096_0_1 : S1x4096.BroadcastsInDim S14336x4096 (![0, 1] : Fin 2 → Fin S14336x4096.rank)
  bitsLt_bf16_f32 : FTy.bits .bf16 < FTy.bits .f32
  bcast_S_S4096x14336 : S_.BroadcastsInDim S4096x14336 (![] : Fin 0 → Fin S4096x14336.rank)
  bcast_S4096x14336_S4096x14336x1_0_1 : S4096x14336.BroadcastsInDim S4096x14336x1 (![0, 1] : Fin 2 → Fin S4096x14336x1.rank)
  bcast_S4096_S4096x1_0 : S4096.BroadcastsInDim S4096x1 (![0] : Fin 1 → Fin S4096x1.rank)
  bcast_S4096x1_S4096x14336_0_1 : S4096x1.BroadcastsInDim S4096x14336 (![0, 1] : Fin 2 → Fin S4096x14336.rank)
  bcast_S14336_S1x14336_1 : S14336.BroadcastsInDim S1x14336 (![1] : Fin 1 → Fin S1x14336.rank)
  bcast_S1x14336_S4096x14336_0_1 : S1x14336.BroadcastsInDim S4096x14336 (![0, 1] : Fin 2 → Fin S4096x14336.rank)
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S64x512_S64x512_0_0 : ∀ a, (![0, 0] : Fin 2 → Nat) a + S64x512.size a ≤ S64x512.size a
  h_S64x512 : 0 < S64x512.numel
  packedbf16_S64x512_S64x512_0_0 : (Rect.unit (s := S64x512) ![0, 0] S64x512.size inb_S64x512_S64x512_0_0).PackedRows (EltTy.packing .bf16)
  shapeCasts_S64x512_S64x512 : S64x512.ShapeCasts S64x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  gather_S4096_S14336x4096x1_S14336x4096_n_0_n_n_0_2_1_wf : GatherDims.WF S4096 S14336x4096x1 S14336x4096 [] [0] [] [0] [] 2 ![1]
  gather_S4096_S4096x14336x1_S4096x14336_n_0_n_n_0_2_1_wf : GatherDims.WF S4096 S4096x14336x1 S4096x14336 [] [0] [] [0] [] 2 ![1]
  dot_S64x4096_S512x4096_S64x512_1_1_0_0_n_n_wf : DotDims.WF S64x4096 S512x4096 S64x512 [1] [1] [0] [0] [] []
  dot_S64x512_S4096x512_S64x4096_1_1_0_0_n_n_wf : DotDims.WF S64x512 S4096x512 S64x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .bf16 = 32 ∨ (Rect.block (s := S64x4096) S64x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S14336x4096.size a
  hwx0_1 : ∀ i : grid0.Coords, EltTy.bits .bf16 = 32 ∨ (Rect.block (s := S14336x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S14336x4096.size a
  hwx0_2 : ∀ i : grid0.Coords, EltTy.bits .bf16 = 32 ∨ (Rect.block (s := S14336x4096) S512x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x14336.size a
  hwx0_3 : ∀ i : grid0.Coords, EltTy.bits .bf16 = 32 ∨ (Rect.block (s := S64x14336) S64x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x512.size a ≤ S64x14336.size a
  hwx1_0 : ∀ i : grid1.Coords, EltTy.bits .bf16 = 32 ∨ (Rect.block (s := S64x14336) S64x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x14336.size a
  hwx1_1 : ∀ i : grid1.Coords, EltTy.bits .bf16 = 32 ∨ (Rect.block (s := S4096x14336) S4096x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x4096.size a ≤ S64x4096.size a
  hwx1_2 : ∀ i : grid1.Coords, EltTy.bits .f32 = 32 ∨ (Rect.block (s := S64x4096) S64x4096.size (cc1_transform_2 i) (hinb1_2 i)).WholeWords (EltTy.packing .f32)

variable [Facts₀]

def gather_S4096_S14336x4096x1_S14336x4096_n_0_n_n_0_2_1 : GatherDims S4096 S14336x4096x1 S14336x4096 where
  offsetDims := []
  collapsedSliceDims := [0]
  operandBatchingDims := []
  startIndicesBatchingDims := []
  startIndexMap := [0]
  indexVectorDim := 2
  sliceSizes := ![1]
  wf := gather_S4096_S14336x4096x1_S14336x4096_n_0_n_n_0_2_1_wf
def gather_S4096_S4096x14336x1_S4096x14336_n_0_n_n_0_2_1 : GatherDims S4096 S4096x14336x1 S4096x14336 where
  offsetDims := []
  collapsedSliceDims := [0]
  operandBatchingDims := []
  startIndicesBatchingDims := []
  startIndexMap := [0]
  indexVectorDim := 2
  sliceSizes := ![1]
  wf := gather_S4096_S4096x14336x1_S4096x14336_n_0_n_n_0_2_1_wf
def dot_S64x4096_S512x4096_S64x512_1_1_0_0_n_n : DotDims S64x4096 S512x4096 S64x512 where
  lhsContracting := [1]
  rhsContracting := [1]
  lhsNonContracting := [0]
  rhsNonContracting := [0]
  lhsBatch := []
  rhsBatch := []
  wf := dot_S64x4096_S512x4096_S64x512_1_1_0_0_n_n_wf
def dot_S64x512_S4096x512_S64x4096_1_1_0_0_n_n : DotDims S64x512 S4096x512 S64x4096 where
  lhsContracting := [1]
  rhsContracting := [1]
  lhsNonContracting := [0]
  rhsNonContracting := [0]
  lhsBatch := []
  rhsBatch := []
  wf := dot_S64x512_S4096x512_S64x4096_1_1_0_0_n_n_wf

abbrev win0_0 : Pipeline.Window sig grid0 :=
  Pipeline.Window.ofSpec (Memref.whole main_v48) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v15) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v49) S64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v49) S64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S64x4096.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S64x4096 : Shape := ⟨2, ![64, 4096]⟩
abbrev S4096 : Shape := ⟨1, ![4096]⟩
abbrev S14336x4096 : Shape := ⟨2, ![14336, 4096]⟩
abbrev S4096x14336 : Shape := ⟨2, ![4096, 14336]⟩
abbrev S14336 : Shape := ⟨1, ![14336]⟩
abbrev S_ : Shape := ⟨0, ![]⟩
abbrev S14336x4096x1 : Shape := ⟨3, ![14336, 4096, 1]⟩
abbrev S14336x1 : Shape := ⟨2, ![14336, 1]⟩
abbrev S1x4096 : Shape := ⟨2, ![1, 4096]⟩
abbrev S4096x14336x1 : Shape := ⟨3, ![4096, 14336, 1]⟩
abbrev S4096x1 : Shape := ⟨2, ![4096, 1]⟩
abbrev S1x14336 : Shape := ⟨2, ![1, 14336]⟩
abbrev S64x14336 : Shape := ⟨2, ![64, 14336]⟩

abbrev nBuf : Space → Nat
  | .hbm => 83
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S14336x4096, .i32⟩
  | .hbm, ⟨5, _⟩ => ⟨S14336x4096, .i32⟩
  | .hbm, ⟨6, _⟩ => ⟨S4096x14336, .i32⟩
  | .hbm, ⟨7, _⟩ => ⟨S14336, .f32⟩
  | .hbm, ⟨8, _⟩ => ⟨S4096, .f32⟩
  | .hbm, ⟨9, _⟩ => ⟨S14336, .f32⟩
  | .hbm, ⟨10, _⟩ => ⟨S4096, .f32⟩
  | .hbm, ⟨11, _⟩ => ⟨S4096, .f32⟩
  | .hbm, ⟨12, _⟩ => ⟨S14336, .f32⟩
  | .hbm, ⟨13, _⟩ => ⟨S_, .i32⟩
  | .hbm, ⟨14, _⟩ => ⟨S14336x4096, .i32⟩
  | .hbm, ⟨15, _⟩ => ⟨S14336x4096, .i1⟩
  | .hbm, ⟨16, _⟩ => ⟨S_, .i32⟩
  | .hbm, ⟨17, _⟩ => ⟨S14336x4096, .i32⟩
  | .hbm, ⟨18, _⟩ => ⟨S14336x4096, .i32⟩
  | .hbm, ⟨19, _⟩ => ⟨S14336x4096, .i32⟩
  | .hbm, ⟨20, _⟩ => ⟨S14336x4096x1, .i32⟩
  | .hbm, ⟨21, _⟩ => ⟨S14336x4096, .f32⟩
  | .hbm, ⟨22, _⟩ => ⟨S14336x1, .f32⟩
  | .hbm, ⟨23, _⟩ => ⟨S14336x4096, .f32⟩
  | .hbm, ⟨24, _⟩ => ⟨S14336x4096, .f32⟩
  | .hbm, ⟨25, _⟩ => ⟨S1x4096, .f32⟩
  | .hbm, ⟨26, _⟩ => ⟨S14336x4096, .f32⟩
  | .hbm, ⟨27, _⟩ => ⟨S14336x4096, .f32⟩
  | .hbm, ⟨28, _⟩ => ⟨S_, .f32⟩
  | .hbm, ⟨29, _⟩ => ⟨S14336x4096, .f32⟩
  | .hbm, ⟨30, _⟩ => ⟨S14336x4096, .f32⟩
  | .hbm, ⟨31, _⟩ => ⟨S_, .i32⟩
  | .hbm, ⟨32, _⟩ => ⟨S14336x4096, .i32⟩
  | .hbm, ⟨33, _⟩ => ⟨S14336x4096, .i1⟩
  | .hbm, ⟨34, _⟩ => ⟨S_, .i32⟩
  | .hbm, ⟨35, _⟩ => ⟨S14336x4096, .i32⟩
  | .hbm, ⟨36, _⟩ => ⟨S14336x4096, .i32⟩
  | .hbm, ⟨37, _⟩ => ⟨S14336x4096, .i32⟩
  | .hbm, ⟨38, _⟩ => ⟨S14336x4096x1, .i32⟩
  | .hbm, ⟨39, _⟩ => ⟨S14336x4096, .f32⟩
  | .hbm, ⟨40, _⟩ => ⟨S14336x1, .f32⟩
  | .hbm, ⟨41, _⟩ => ⟨S14336x4096, .f32⟩
  | .hbm, ⟨42, _⟩ => ⟨S14336x4096, .f32⟩
  | .hbm, ⟨43, _⟩ => ⟨S1x4096, .f32⟩
  | .hbm, ⟨44, _⟩ => ⟨S14336x4096, .f32⟩
  | .hbm, ⟨45, _⟩ => ⟨S14336x4096, .f32⟩
  | .hbm, ⟨46, _⟩ => ⟨S_, .f32⟩
  | .hbm, ⟨47, _⟩ => ⟨S14336x4096, .f32⟩
  | .hbm, ⟨48, _⟩ => ⟨S14336x4096, .f32⟩
  | .hbm, ⟨49, _⟩ => ⟨S_, .i32⟩
  | .hbm, ⟨50, _⟩ => ⟨S4096x14336, .i32⟩
  | .hbm, ⟨51, _⟩ => ⟨S4096x14336, .i1⟩
  | .hbm, ⟨52, _⟩ => ⟨S_, .i32⟩
  | .hbm, ⟨53, _⟩ => ⟨S4096x14336, .i32⟩
  | .hbm, ⟨54, _⟩ => ⟨S4096x14336, .i32⟩
  | .hbm, ⟨55, _⟩ => ⟨S4096x14336, .i32⟩
  | .hbm, ⟨56, _⟩ => ⟨S4096x14336x1, .i32⟩
  | .hbm, ⟨57, _⟩ => ⟨S4096x14336, .f32⟩
  | .hbm, ⟨58, _⟩ => ⟨S4096x1, .f32⟩
  | .hbm, ⟨59, _⟩ => ⟨S4096x14336, .f32⟩
  | .hbm, ⟨60, _⟩ => ⟨S4096x14336, .f32⟩
  | .hbm, ⟨61, _⟩ => ⟨S1x14336, .f32⟩
  | .hbm, ⟨62, _⟩ => ⟨S4096x14336, .f32⟩
  | .hbm, ⟨63, _⟩ => ⟨S4096x14336, .f32⟩
  | .hbm, ⟨64, _⟩ => ⟨S_, .f32⟩
  | .hbm, ⟨65, _⟩ => ⟨S4096x14336, .f32⟩
  | .hbm, ⟨66, _⟩ => ⟨S4096x14336, .f32⟩
  | .hbm, ⟨67, _⟩ => ⟨S4096x14336, .f32⟩
  | .hbm, ⟨68, _⟩ => ⟨S64x14336, .f32⟩
  | .hbm, ⟨69, _⟩ => ⟨S64x14336, .f32⟩
  | .hbm, ⟨70, _⟩ => ⟨S64x14336, .f32⟩
  | .hbm, ⟨71, _⟩ => ⟨S_, .f32⟩
  | .hbm, ⟨72, _⟩ => ⟨S64x14336, .f32⟩
  | .hbm, ⟨73, _⟩ => ⟨S64x14336, .f32⟩
  | .hbm, ⟨74, _⟩ => ⟨S_, .f32⟩
  | .hbm, ⟨75, _⟩ => ⟨S64x14336, .f32⟩
  | .hbm, ⟨76, _⟩ => ⟨S64x14336, .f32⟩
  | .hbm, ⟨77, _⟩ => ⟨S64x14336, .f32⟩
  | .hbm, ⟨78, _⟩ => ⟨S4096x14336, .f32⟩
  | .hbm, ⟨79, _⟩ => ⟨S64x14336, .f32⟩
  | .hbm, ⟨80, _⟩ => ⟨S64x14336, .f32⟩
  | .hbm, ⟨81, _⟩ => ⟨S14336x4096, .f32⟩
  | .hbm, ⟨82, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩

abbrev nD : Nat := 1
abbrev τ : Topo := Topo.v7x

variable {F : FTy → Type} [FloatOps F]

class Facts₀ : Prop where
  bcast_S_S14336x4096 : S_.BroadcastsInDim S14336x4096 (![] : Fin 0 → Fin S14336x4096.rank)
  bcast_S14336x4096_S14336x4096x1_0_1 : S14336x4096.BroadcastsInDim S14336x4096x1 (![0, 1] : Fin 2 → Fin S14336x4096x1.rank)
  bcast_S14336_S14336x1_0 : S14336.BroadcastsInDim S14336x1 (![0] : Fin 1 → Fin S14336x1.rank)
  bcast_S14336x1_S14336x4096_0_1 : S14336x1.BroadcastsInDim S14336x4096 (![0, 1] : Fin 2 → Fin S14336x4096.rank)
  bcast_S4096_S1x4096_1 : S4096.BroadcastsInDim S1x4096 (![1] : Fin 1 → Fin S1x4096.rank)
  bcast_S1x4096_S14336x4096_0_1 : S1x4096.BroadcastsInDim S14336x4096 (![0, 1] : Fin 2 → Fin S14336x4096.rank)
  bcast_S_S4096x14336 : S_.BroadcastsInDim S4096x14336 (![] : Fin 0 → Fin S4096x14336.rank)
  bcast_S4096x14336_S4096x14336x1_0_1 : S4096x14336.BroadcastsInDim S4096x14336x1 (![0, 1] : Fin 2 → Fin S4096x14336x1.rank)
  bcast_S4096_S4096x1_0 : S4096.BroadcastsInDim S4096x1 (![0] : Fin 1 → Fin S4096x1.rank)
  bcast_S4096x1_S4096x14336_0_1 : S4096x1.BroadcastsInDim S4096x14336 (![0, 1] : Fin 2 → Fin S4096x14336.rank)
  bcast_S14336_S1x14336_1 : S14336.BroadcastsInDim S1x14336 (![1] : Fin 1 → Fin S1x14336.rank)
  bcast_S1x14336_S4096x14336_0_1 : S1x14336.BroadcastsInDim S4096x14336 (![0, 1] : Fin 2 → Fin S4096x14336.rank)
  transposes_S14336x4096_S4096x14336_1_0 : S14336x4096.Transposes [1, 0] S4096x14336
  bcast_S_S64x14336 : S_.BroadcastsInDim S64x14336 (![] : Fin 0 → Fin S64x14336.rank)
  transposes_S4096x14336_S14336x4096_1_0 : S4096x14336.Transposes [1, 0] S14336x4096
  gather_S4096_S14336x4096x1_S14336x4096_n_0_n_n_0_2_1_wf : GatherDims.WF S4096 S14336x4096x1 S14336x4096 [] [0] [] [0] [] 2 ![1]
  gather_S4096_S4096x14336x1_S4096x14336_n_0_n_n_0_2_1_wf : GatherDims.WF S4096 S4096x14336x1 S4096x14336 [] [0] [] [0] [] 2 ![1]
  dot_S64x4096_S4096x14336_S64x14336_1_0_0_1_n_n_wf : DotDims.WF S64x4096 S4096x14336 S64x14336 [1] [0] [0] [1] [] []
  dot_S64x14336_S14336x4096_S64x4096_1_0_0_1_n_n_wf : DotDims.WF S64x14336 S14336x4096 S64x4096 [1] [0] [0] [1] [] []

variable [Facts₀]

def gather_S4096_S14336x4096x1_S14336x4096_n_0_n_n_0_2_1 : GatherDims S4096 S14336x4096x1 S14336x4096 where
  offsetDims := []
  collapsedSliceDims := [0]
  operandBatchingDims := []
  startIndicesBatchingDims := []
  startIndexMap := [0]
  indexVectorDim := 2
  sliceSizes := ![1]
  wf := gather_S4096_S14336x4096x1_S14336x4096_n_0_n_n_0_2_1_wf
def gather_S4096_S4096x14336x1_S4096x14336_n_0_n_n_0_2_1 : GatherDims S4096 S4096x14336x1 S4096x14336 where
  offsetDims := []
  collapsedSliceDims := [0]
  operandBatchingDims := []
  startIndicesBatchingDims := []
  startIndexMap := [0]
  indexVectorDim := 2
  sliceSizes := ![1]
  wf := gather_S4096_S4096x14336x1_S4096x14336_n_0_n_n_0_2_1_wf
def dot_S64x4096_S4096x14336_S64x14336_1_0_0_1_n_n : DotDims S64x4096 S4096x14336 S64x14336 where
  lhsContracting := [1]
  rhsContracting := [0]
  lhsNonContracting := [0]
  rhsNonContracting := [1]
  lhsBatch := []
  rhsBatch := []
  wf := dot_S64x4096_S4096x14336_S64x14336_1_0_0_1_n_n_wf
def dot_S64x14336_S14336x4096_S64x4096_1_0_0_1_n_n : DotDims S64x14336 S14336x4096 S64x4096 where
  lhsContracting := [1]
  rhsContracting := [0]
  lhsNonContracting := [0]
  rhsNonContracting := [1]
  lhsBatch := []
  rhsBatch := []
  wf := dot_S64x14336_S14336x4096_S64x4096_1_0_0_1_n_n_wf

class Facts : Prop extends Facts₀ where

variable [Facts]
-- ==== Proof.KI.Region0.lean ====
/- The first pallas_call (the gate and up projections of one tile of 512 intermediate columns, silu(gate)·up
   rounded to bf16) as a pipeline region entered at ANY contents `V` of the core's buffers: the three input windows hold
   their blocks at every point, the body stores ONE piece covering the output block, namely the payload of the three
   loaded blocks; the region keeps nothing between points, so its invariant is the scoped rest and the generator
   register, untouched. -/
import proofs.«128673_j42176578847199_1_alg».proof.Proof.Gen.KernelIdeal.Launch
import proofs.«128673_j42176578847199_1_alg».proof.Proof.Gen.KernelIdeal.Skeleton
import proofs.«128673_j42176578847199_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (the activations'
    window is fetched once, its block index never moving; the two weight windows at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rX : Rect S64x4096 := Rect.unit (s := S64x4096) ![0, 0] S64x4096.size inb_S64x4096_S64x4096_0_0
abbrev rW : Rect S512x4096 := Rect.unit (s := S512x4096) ![0, 0] S512x4096.size inb_S512x4096_S512x4096_0_0
abbrev rH : Rect S64x512 := Rect.unit (s := S64x512) ![0, 0] S64x512.size inb_S64x512_S64x512_0_0

/-- The output window's staging buffer after the body: its one store, the payload of the three loaded blocks. -/
def out0_3 (x0 : Vec F S64x4096 .bf16) (x1 : Vec F S512x4096 .bf16) (x2 : Vec F S512x4096 .bf16) : Vec F S64x512 .bf16 :=
  View.canon [⟨rH, k0_pay1 (View.ld x0 rX) (View.ld x1 rW) (View.ld x2 rW)⟩]

/-- The one store covers the output block. -/
theorem cover0_3 (p0 : Vec F S64x512 .bf16) (y : S64x512.Idx) :
    ∃ pc ∈ ([⟨rH, p0⟩] : List (View.Piece (Elt F) S64x512 .bf16)), y ∈ pc.1.set :=
  View.cover_of_tiled [⟨rH, p0⟩] S64x512.size (by rfl) y

set_option maxHeartbeats 4000000 in
/-- The body on whole staging memrefs, the inputs' at contents `x0 x1 x2` and the output's at anything, runs to the
    continuation holding the inputs' as they were and the output's at `out0_3` of them. -/
theorem sound_kernel0 (c : Dev nD) (E : Set ℕ) (i : grid0.Coords) (arg1 : Memref sig .tc .vmem S64x4096 .bf16) (harg1 : arg1.IsWhole)
    (arg2 : Memref sig .tc .vmem S512x4096 .bf16) (harg2 : arg2.IsWhole) (arg3 : Memref sig .tc .vmem S512x4096 .bf16) (harg3 : arg3.IsWhole)
    (arg4 : Memref sig .tc .vmem S64x512 .bf16) (harg4 : arg4.IsWhole)
    (x0 : Vec F S64x4096 .bf16) (x1 : Vec F S512x4096 .bf16) (x2 : Vec F S512x4096 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__stage1_kernel i arg1 harg1 arg2 harg2 arg3 harg3 arg4 harg4) K := by
  simp only [cc0__stage1_kernel_eq_skeleton]; unfold cc0__stage1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as the region finds them; after the body at point `t` each input's
    buffer at its block and the output's at `out0_3` of the three input blocks; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region1.lean ====
/- The second pallas_call (the down projection, accumulated over 28 tiles of 512 intermediate columns in a scratch
   buffer the kernel keeps between grid points) as a pipeline region entered at ANY contents `V` of the core's buffers.
   At the first point the scratch is set to zero and the first tile's product added; at every later point the tile's
   product is added to what the point before left; at the last point the scratch is copied to the output block, which
   is written back there and only there. -/
import proofs.«128673_j42176578847199_1_alg».proof.Proof.Gen.KernelIdeal.Launch
import proofs.«128673_j42176578847199_1_alg».proof.Proof.Gen.KernelIdeal.Skeleton
import proofs.«128673_j42176578847199_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional's condition (the grid coordinate is zero), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)
/-- The second conditional's condition (the grid coordinate is 27). -/
abbrev cond1_1 (i : grid1.Coords) : Prop := k1_cond2 i = 1#1
/-- It holds at the last point only. -/
theorem hcond1_1 : ∀ t : Fin cfg1.N, cond1_1 (grid1.coords t) ↔ t.val = 27 :=
  (by decide +kernel : ∀ t : Fin grid1.N, cond1_1 (grid1.coords t) ↔ t.val = 27)

/-- The zero offsets of a rank-two whole-block rectangle. -/
private theorem hz2 : (![0, 0] : Fin 2 → Nat) = fun _ => 0 := by funext a; fin_cases a <;> rfl

/-- One store through the whole-shape rectangle at zero offsets, LAST, leaves its payload, whatever was stored before
    it and whatever the buffer held. -/
private theorem read_writes_cons_unit_zero {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h; funext y
  have e := View.read_writes_cons_emb (v := v) (f := f) (Rect.whole S) w L y
  rw [Rect.emb_whole_apply] at e
  exact e

set_option maxHeartbeats 4000000 in
/-- The body at the first point (the first conditional taken, the second not), on whole memrefs: the inputs' at
    `x0 x1`, the output's at `xi`, the scratch at anything. It zeroes the scratch, reads the zeros back and leaves the
    first tile's product over them; the inputs' and the output's buffers are as they were. -/
theorem sound_kernel1_A (c : Dev nD) (E : Set ℕ) (i : grid1.Coords) (arg1 : Memref sig .tc .vmem S64x512 .bf16) (harg1 : arg1.IsWhole)
    (arg2 : Memref sig .tc .vmem S4096x512 .bf16) (harg2 : arg2.IsWhole) (arg3 : Memref sig .tc .vmem S64x4096 .f32) (harg3 : arg3.IsWhole)
    (arg4 : Memref sig .tc .vmem S64x4096 .f32) (harg4 : arg4.IsWhole) (hc0 : cond1_0 i) (hc1 : ¬cond1_1 i)
    (x0 : Vec F S64x512 .bf16) (x1 : Vec F S4096x512 .bf16) (xi : Vec F S64x4096 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k1_pay2 x0 x1 (k1_pay1 (F := F)))) -∗ K ⟨⟩))
      ⊢ wp frame (wpE (defs₀ (F := F)) Variants.none c none) E (cc1__stage2_kernel i arg1 harg1 arg2 harg2 arg3 harg3 arg4 harg4) K := by
  simp only [cc1__stage2_kernel_eq_skeleton]; unfold cc1__stage2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [read_writes_cons_unit_zero (S := S64x4096) _ _ hz2]
  simp only [View.readAt_eq_ld, View.ld_unit_zero (S := S64x512) hz2, View.ld_unit_zero (S := S4096x512) hz2,
    View.readCov_unit_zero (S := S64x4096) _ hz2]

set_option maxHeartbeats 4000000 in
/-- The body at a middle point (neither conditional taken), the scratch at `xs`: it leaves the tile's product
    added to `xs` in the scratch; the other three buffers are as they were. -/
theorem sound_kernel1_B (c : Dev nD) (E : Set ℕ) (i : grid1.Coords) (arg1 : Memref sig .tc .vmem S64x512 .bf16) (harg1 : arg1.IsWhole)
    (arg2 : Memref sig .tc .vmem S4096x512 .bf16) (harg2 : arg2.IsWhole) (arg3 : Memref sig .tc .vmem S64x4096 .f32) (harg3 : arg3.IsWhole)
    (arg4 : Memref sig .tc .vmem S64x4096 .f32) (harg4 : arg4.IsWhole) (hc0 : ¬cond1_0 i) (hc1 : ¬cond1_1 i)
    (x0 : Vec F S64x512 .bf16) (x1 : Vec F S4096x512 .bf16) (xi : Vec F S64x4096 .f32) (xs : Vec F S64x4096 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k1_pay2 x0 x1 xs)) -∗ K ⟨⟩))
      ⊢ wp frame (wpE (defs₀ (F := F)) Variants.none c none) E (cc1__stage2_kernel i arg1 harg1 arg2 harg2 arg3 harg3 arg4 harg4) K := by
  simp only [cc1__stage2_kernel_eq_skeleton]; unfold cc1__stage2_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [read_writes_cons_unit_zero (S := S64x4096) _ _ hz2]
  simp only [View.readAt_eq_ld, View.ld_unit_zero (S := S64x512) hz2, View.ld_unit_zero (S := S4096x512) hz2,
    View.ld_unit_zero (S := S64x4096) hz2]

set_option maxHeartbeats 4000000 in
/-- The body at the last point (the second conditional taken), the scratch at `xs`, the output's buffer at anything:
    it leaves the tile's product added to `xs` in the scratch, reads that back and stores it over the output's buffer. -/
theorem sound_kernel1_C (c : Dev nD) (E : Set ℕ) (i : grid1.Coords) (arg1 : Memref sig .tc .vmem S64x512 .bf16) (harg1 : arg1.IsWhole)
    (arg2 : Memref sig .tc .vmem S4096x512 .bf16) (harg2 : arg2.IsWhole) (arg3 : Memref sig .tc .vmem S64x4096 .f32) (harg3 : arg3.IsWhole)
    (arg4 : Memref sig .tc .vmem S64x4096 .f32) (harg4 : arg4.IsWhole) (hc0 : ¬cond1_0 i) (hc1 : cond1_1 i)
    (x0 : Vec F S64x512 .bf16) (x1 : Vec F S4096x512 .bf16) (xs : Vec F S64x4096 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1 ∗ owns (c : Thread nD τ) arg3 fullShare (k1_pay2 x0 x1 xs)
            ∗ owns (c : Thread nD τ) arg4 fullShare (k1_pay2 x0 x1 xs)) -∗ K ⟨⟩))
      ⊢ wp frame (wpE (defs₀ (F := F)) Variants.none c none) E (cc1__stage2_kernel i arg1 harg1 arg2 harg2 arg3 harg3 arg4 harg4) K := by
  simp only [cc1__stage2_kernel_eq_skeleton]; unfold cc1__stage2_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [read_writes_cons_unit_zero (S := S64x4096) _ _ hz2]
    simp only [View.readAt_eq_ld, View.ld_unit_zero (S := S64x512) hz2, View.ld_unit_zero (S := S4096x512) hz2,
      View.ld_unit_zero (S := S64x4096) hz2, View.readCov_unit_zero (S := S64x4096) _ hz2]
  iexists _; isplitr
  swap; · iexact H3
  ipureintro
  sl_unfold_words
  rw [read_writes_cons_unit_zero (S := S64x4096) _ _ hz2]
  simp only [View.readAt_eq_ld, View.ld_unit_zero (S := S64x512) hz2, View.ld_unit_zero (S := S4096x512) hz2,
    View.ld_unit_zero (S := S64x4096) hz2]

/-- Seven conjuncts, then an eighth, then a ninth: the eighth moved to the front. -/
private theorem sep_rotate8 (A1 A2 A3 A4 A5 A6 A7 S G : sProp 𝕄) :
    iprop((A1 ∗ A2 ∗ A3 ∗ A4 ∗ A5 ∗ A6 ∗ A7 ∗ S) ∗ G) = iprop(S ∗ (A1 ∗ A2 ∗ A3 ∗ A4 ∗ A5 ∗ A6 ∗ A7) ∗ G) := by
  have h₁ : iprop((A1 ∗ A2 ∗ A3 ∗ A4 ∗ A5 ∗ A6 ∗ A7 ∗ S) ∗ G) ⊢ iprop(S ∗ (A1 ∗ A2 ∗ A3 ∗ A4 ∗ A5 ∗ A6 ∗ A7) ∗ G) := by
    iintro ⟨⟨H1, H2, H3, H4, H5, H6, H7, HS⟩, Hg⟩
    isplitl [HS]; · iexact HS
    isplitl [H1 H2 H3 H4 H5 H6 H7]
    · isplitl [H1]; · iexact H1
      isplitl [H2]; · iexact H2
      isplitl [H3]; · iexact H3
      isplitl [H4]; · iexact H4
      isplitl [H5]; · iexact H5
      isplitl [H6]; · iexact H6
      iexact H7
    iexact Hg
  have h₂ : iprop(S ∗ (A1 ∗ A2 ∗ A3 ∗ A4 ∗ A5 ∗ A6 ∗ A7) ∗ G) ⊢ iprop((A1 ∗ A2 ∗ A3 ∗ A4 ∗ A5 ∗ A6 ∗ A7 ∗ S) ∗ G) := by
    iintro ⟨HS, ⟨H1, H2, H3, H4, H5, H6, H7⟩, Hg⟩
    isplitl [H1 H2 H3 H4 H5 H6 H7 HS]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact HS
    iexact Hg
  exact BI.equiv_iff.mp ⟨h₁, h₂⟩

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch (the running total) after the body at position `n`: the payload of the point's two input blocks over
    zero at the first point, over what the point before left afterwards. -/
def acc1 (c : Dev nD) : (n : ℕ) → n < cfg1.N → Vec F S64x4096 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩) (acc1 c n (Nat.lt_of_succ_lt hn))

theorem acc1_zero (c : Dev nD) (hn : 0 < cfg1.N) :
    acc1 V c 0 hn = k1_pay2 (iblk1 V c 0 ⟨0, hn⟩) (iblk1 V c 1 ⟨0, hn⟩) (k1_pay1 (F := F)) := rfl
theorem acc1_succ (c : Dev nD) (n : ℕ) (hn : n + 1 < cfg1.N) :
    acc1 V c (n + 1) hn = k1_pay2 (iblk1 V c 0 ⟨n + 1, hn⟩) (iblk1 V c 1 ⟨n + 1, hn⟩) (acc1 V c n (Nat.lt_of_succ_lt hn)) := rfl

/-- The scratch as a whole memref. -/
abbrev scM1 : Memref sig .tc .vmem S64x4096 .f32 := Memref.whole cc1_scratch0

/-- The core's other scoped buffers that are no staging buffer of this call (the first call's seven staging buffers),
    each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The region invariant before position `n`: before the first point every scratch at anything; afterwards the carried
    scratch at what the point before left, the other scoped buffers at anything, the generator register at some state. -/
def Phi1 (c : Dev nD) : (n : ℕ) → n ≤ cfg1.N → sProp 𝕄
  | 0, _ => Pipeline.ΦA spec1 c
  | n + 1, hn => iprop(owns (c : Thread nD τ) scM1 fullShare (acc1 V c n hn) ∗ rest1 (F := F) c ∗ (∃ r, prngReg c r))

/-- The region's proof data on core `c`. Window 2's entry is consulted at the last point only (elsewhere the window is
    idle and not written back). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-- An input window's current staging buffer holds its block at every point (both input windows are fetched at
    every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The running total at the first point: the first tile's product over zero. -/
theorem acc1_first (c : Dev nD) (t : Fin cfg1.N) (h : t.val = 0) :
    acc1 V c t.val t.isLt = k1_pay2 (iblk1 V c 0 t) (iblk1 V c 1 t) (k1_pay1 (F := F)) := by
  obtain ⟨n, hn⟩ := t
  cases n with
  | zero => rfl
  | succ n => exact absurd h (Nat.succ_ne_zero n)

/-- The running total at a later point: the point's product over the total of the point before. -/
theorem acc1_later (c : Dev nD) (t : Fin cfg1.N) (h : t.val ≠ 0) :
    acc1 V c t.val t.isLt
      = k1_pay2 (iblk1 V c 0 t) (iblk1 V c 1 t) (acc1 V c (t.val - 1) (Nat.lt_of_le_of_lt (Nat.sub_le _ _) t.isLt)) := by
  obtain ⟨n, hn⟩ := t
  cases n with
  | zero => exact absurd rfl h
  | succ n => rfl

/-- What the launch hands the region, with the scratch as a whole memref owned at some contents and the first call's
    staging buffers apart from it. -/
theorem PhiA1_eq (c : Dev nD) :
    (Pipeline.ΦA spec1 c : sProp 𝕄)
      = iprop((∃ d, owns (c : Thread nD τ) scM1 fullShare d) ∗ rest1 (F := F) c ∗ (∃ r, prngReg c r)) := by
  unfold Pipeline.ΦA; rw [scopedRest1_eq]
  unfold rest1
  simp only [scM1, owns_whole]
  exact sep_rotate8 _ _ _ _ _ _ _ _ _

theorem Phi1_zero (c : Dev nD) (n : ℕ) (h : n ≤ cfg1.N) (hz : n = 0) : Phi1 V c n h = Pipeline.ΦA spec1 c := by
  subst hz; rfl

/-- After point `n`: the scratch at that point's running total. -/
theorem Phi1_succ (c : Dev nD) (n : ℕ) (hn : n < cfg1.N) :
    Phi1 V c (n + 1) hn = iprop(owns (c : Thread nD τ) scM1 fullShare (acc1 V c n hn) ∗ rest1 (F := F) c ∗ (∃ r, prngReg c r)) := rfl

/-- Before a point that is not the first: the scratch at the running total of the point before. -/
theorem Phi1_pos (c : Dev nD) (n : ℕ) (h : n ≤ cfg1.N) (hz : n ≠ 0) :
    Phi1 V c n h = iprop(owns (c : Thread nD τ) scM1 fullShare (acc1 V c (n - 1) (by omega)) ∗ rest1 (F := F) c ∗ (∃ r, prngReg c r)) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

/-- The input windows are never idle; the output window is idle, and not written back, at every point but the last. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, t.val ≠ 27 → cfg1.idle 2 (grid1.coords t) = true := by decide +kernel
theorem noFlush1_2 : ∀ t : Fin cfg1.N, t.val ≠ 27 → (cfg1.win 2).flush t = false := by decide +kernel
theorem liveAt1_2 : ∀ t : Fin cfg1.N, t.val = 27 → cfg1.idle 2 (grid1.coords t) = false := by decide +kernel

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The inputs' memrefs hold their blocks. At the last point the scratch holds the running total
    of the point before, the body adds the last tile's product and copies the total to the output's buffer, which is
    live there. At every other point the output's buffer is idle and handed back as found; at the first point the
    scratch is at anything and ends at the first tile's product over zero, at a middle point it goes from the total
    of the point before to this point's. The first call's staging buffers, the generator register and what the core
    owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  have hN : t.val < 28 := lt_of_lt_of_eq t.isLt (show cfg1.N = 28 from N_1)
  by_cases h1 : t.val = 27
  · have h0 : t.val ≠ 0 := by omega
    rw [show (dat1 V c).leavesExact 2 t = owns (c : Thread nD τ) (st1_2 t) fullShare ((dat1 V c).after 2 t) from by
      unfold Dat.leavesExact; rw [liveAt1_2 t h1], after1_2]
    rw [acc1_later V c t h0]
    rw [Phi1_castSucc V c t, Phi1_pos V c _ _ h0]
    iintro ⟨⟨HS, Hr, Hg⟩, Ho, ⟨%d0, H0⟩, ⟨%d1, H1⟩, ⟨%d2, H2⟩⟩
    iapply (sound_kernel1_C c Set.univ (grid1.coords t) _ _ _ _ _ _ _ _ (fun h => h0 ((hcond1_0 t).mp h)) ((hcond1_1 t).mpr h1)
      (iblk1 V c 0 t) (iblk1 V c 1 t) (acc1 V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · rw [Dat.leavesExact_idle (dat1 V c) 2 t (idleAt1_2 t h1) (noFlush1_2 t h1)]
    by_cases h0 : t.val = 0
    · rw [acc1_first V c t h0]
      rw [Phi1_castSucc V c t, Phi1_zero V c _ _ h0, PhiA1_eq]
      iintro ⟨⟨HS, Hr, Hg⟩, Ho, ⟨%d0, H0⟩, ⟨%d1, H1⟩, ⟨%d2, H2⟩⟩
      iapply (sound_kernel1_A c Set.univ (grid1.coords t) _ _ _ _ _ _ _ _ ((hcond1_0 t).mpr h0) (fun h => h1 ((hcond1_1 t).mp h))
        (iblk1 V c 0 t) (iblk1 V c 1 t) ((dat1 V c).before 2 t d2) _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2
    · rw [acc1_later V c t h0]
      rw [Phi1_castSucc V c t, Phi1_pos V c _ _ h0]
      iintro ⟨⟨HS, Hr, Hg⟩, Ho, ⟨%d0, H0⟩, ⟨%d1, H1⟩, ⟨%d2, H2⟩⟩
      iapply (sound_kernel1_B c Set.univ (grid1.coords t) _ _ _ _ _ _ _ _ (fun h => h0 ((hcond1_0 t).mp h)) (fun h => h1 ((hcond1_1 t).mp h))
        (iblk1 V c 0 t) (iblk1 V c 1 t) ((dat1 V c).before 2 t d2) (acc1 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class's back: the scratch's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 28 := N_1; omega), PhiA1_eq]
  iintro ⟨HS, Hr, Hg⟩
  isplitl [HS]; · iexists _; iexact HS
  isplitl [Hr]; · iexact Hr
  iexact Hg

end Region1

end Cert.KernelIdeal.Hand

end
-- ==== Proof.KI.Run.lean ====
/- The program as a run: host operations (the three weight arrays de-quantised, the activations rounded), then the two
   pallas_calls, each a pipeline region. The buffers' contents at each boundary are a fold from the launch memory: after
   the host operations; after the first region, whose output array holds what its write-backs leave; after the second.
   Every execution terminates and every unscoped buffer ends at the last fold's contents: the arguments as launched (no
   operation and no region writes one) and the result array at what the second region's write-back leaves. -/
import proofs.«128673_j42176578847199_1_alg».proof.Proof.Gen.KernelIdeal.Launch
import proofs.«128673_j42176578847199_1_alg».proof.Proof.Gen.KernelIdeal.Skeleton
import proofs.«128673_j42176578847199_1_alg».proof.Proof.Gen.KernelIdeal.Points
import proofs.«128673_j42176578847199_1_alg».proof.Proof.Gen.KernelIdeal.Regions
import proofs.«128673_j42176578847199_1_alg».proof.Proof.KI.Region0
import proofs.«128673_j42176578847199_1_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => m (c, b)
/-- After the host operations (the first region's entry). -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- At the first region's exit: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- At the second region's exit. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-- A buffer that is no region's array and that no host operation writes ends as launched. -/
theorem B3_kept (c : Dev nD) (r : Ref sig .tc) (h1 : ∀ w, Pipeline.arrRef spec1 w ≠ r) (h0 : ∀ w, Pipeline.arrRef spec0 w ≠ r)
    (hh : r ∉ hostOps0_W) : B3 m c (Proc.devRef .tc r) = m ((c : Thread nD τ).loc r) :=
  (B3_of_ne m c r h1).trans <| (B2_of_ne m c r h0).trans <| (StableHlo.after_of_writes_sub hostOps0 _ hostOps0_writes hh).trans rfl

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m c) ∗ ∃ r, prngReg c r)

/-! ## The regions as segments -/

set_option backward.isDefEq.respectTransparency.types false in
/-- The first region over the thread state: entered from every unscoped buffer at `B1`, left at `B2`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `B2`, left at `B3`. Its invariant
    starts as the scoped rest and the generator register and gives them back after the last point. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h1 : (pdats m 1 c).Φ (Fin.last _) ⊢ Pipeline.ΦA spec1 c := hout1 (E2 m) c
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact h1.trans h2
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm' (pdats m) () defs₀ 𝒱₀ L lv) :=
  [ .host (hseg hostOps0 hostOps0_sub hostOps0_fresh (B0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution terminates, nothing faulting, and every unscoped
    buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-! ## What the run's post says of the arguments and of the result -/

/-- Each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c _ (mem_uc main_arg0 (by decide))).trans (B3_kept m c main_arg0 (by decide) (by decide) (by decide)),
     (h c _ (mem_uc main_arg1 (by decide))).trans (B3_kept m c main_arg1 (by decide) (by decide) (by decide)),
     (h c _ (mem_uc main_arg2 (by decide))).trans (B3_kept m c main_arg2 (by decide) (by decide) (by decide)),
     (h c _ (mem_uc main_arg3 (by decide))).trans (B3_kept m c main_arg3 (by decide) (by decide) (by decide)),
     (h c _ (mem_uc main_arg4 (by decide))).trans (B3_kept m c main_arg4 (by decide) (by decide) (by decide)),
     (h c _ (mem_uc main_arg5 (by decide))).trans (B3_kept m c main_arg5 (by decide) (by decide) (by decide)),
     (h c _ (mem_uc main_arg6 (by decide))).trans (B3_kept m c main_arg6 (by decide) (by decide) (by decide)),
     (h c _ (mem_uc main_arg7 (by decide))).trans (B3_kept m c main_arg7 (by decide) (by decide) (by decide)),
     (h c _ (mem_uc main_arg8 (by decide))).trans (B3_kept m c main_arg8 (by decide) (by decide) (by decide)),
     (h c _ (mem_uc main_arg9 (by decide))).trans (B3_kept m c main_arg9 (by decide) (by decide) (by decide)),
     (h c _ (mem_uc main_arg10 (by decide))).trans (B3_kept m c main_arg10 (by decide) (by decide) (by decide)),
     (h c _ (mem_uc main_arg11 (by decide))).trans (B3_kept m c main_arg11 (by decide) (by decide) (by decide)),
     (h c _ (mem_uc main_arg12 (by decide))).trans (B3_kept m c main_arg12 (by decide) (by decide) (by decide))⟩) (run_all m ρ)

/-- The result array ends at what the second region's write-backs leave, the arguments as launched. -/
theorem run_result : θ_run defs (onTc (τ := τ) (main (F := F))) ⟨m, fun _ => 0, ρ⟩ (fun r => ∀ c : Dev nD,
      r.2.mem ((c.tc : Thread nD τ).loc main_v50) = (dat1 (E2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c _ (mem_uc main_v50 (by decide))).trans (B3_arr m c 2),
     (h c _ (mem_uc main_arg0 (by decide))).trans (B3_kept m c main_arg0 (by decide) (by decide) (by decide)),
     (h c _ (mem_uc main_arg1 (by decide))).trans (B3_kept m c main_arg1 (by decide) (by decide) (by decide)),
     (h c _ (mem_uc main_arg2 (by decide))).trans (B3_kept m c main_arg2 (by decide) (by decide) (by decide)),
     (h c _ (mem_uc main_arg3 (by decide))).trans (B3_kept m c main_arg3 (by decide) (by decide) (by decide)),
     (h c _ (mem_uc main_arg4 (by decide))).trans (B3_kept m c main_arg4 (by decide) (by decide) (by decide)),
     (h c _ (mem_uc main_arg5 (by decide))).trans (B3_kept m c main_arg5 (by decide) (by decide) (by decide)),
     (h c _ (mem_uc main_arg6 (by decide))).trans (B3_kept m c main_arg6 (by decide) (by decide) (by decide)),
     (h c _ (mem_uc main_arg7 (by decide))).trans (B3_kept m c main_arg7 (by decide) (by decide) (by decide)),
     (h c _ (mem_uc main_arg8 (by decide))).trans (B3_kept m c main_arg8 (by decide) (by decide) (by decide)),
     (h c _ (mem_uc main_arg9 (by decide))).trans (B3_kept m c main_arg9 (by decide) (by decide) (by decide)),
     (h c _ (mem_uc main_arg10 (by decide))).trans (B3_kept m c main_arg10 (by decide) (by decide) (by decide)),
     (h c _ (mem_uc main_arg11 (by decide))).trans (B3_kept m c main_arg11 (by decide) (by decide) (by decide)),
     (h c _ (mem_uc main_arg12 (by decide))).trans (B3_kept m c main_arg12 (by decide) (by decide) (by decide))⟩) (run_all m ρ)

/-- The second region finds the first region's output array at what its write-backs left, and the down weights as the
    host operations left them. -/
theorem E2_hidden (c : Dev nD) : E2 m c main_v49 = (dat0 (E1 m) c).arrAt 3 cfg0.N := B2_arr m c 3
theorem E2_wd (c : Dev nD) : E2 m c main_v47 = E1 m c main_v47 := B2_of_ne m c main_v47 (by decide)

end Cert.KernelIdeal.Hand

end
-- ==== Proof.LibSumTiles.lean ====
/-
  A general lemma. A finite sum over the T·K indices of a tiled axis is the sum, over the T tiles, of each tile's sum
  over its K indices, index K·s + kk being index kk of tile s. It holds in any commutative additive monoid, so in
  particular over the extended reals, where no finiteness is needed to regroup a sum.
-/
import Mathlib.Algebra.BigOperators.Fin
import Mathlib.Logic.Equiv.Fin.Basic

namespace Cert.SumTiles

/-- Index `kk` of tile `s`. -/
def at_ {T K : ℕ} (s : Fin T) (kk : Fin K) : Fin (T * K) :=
  ⟨K * s.val + kk.val, by
    have hs := s.isLt; have hk := kk.isLt
    calc K * s.val + kk.val < K * s.val + K := Nat.add_lt_add_left hk _
      _ = K * (s.val + 1) := by rw [Nat.mul_succ]
      _ ≤ K * T := Nat.mul_le_mul_left _ hs
      _ = T * K := Nat.mul_comm _ _⟩

theorem at_val {T K : ℕ} (s : Fin T) (kk : Fin K) : (at_ s kk).val = K * s.val + kk.val := rfl

/-- A sum over a tiled axis, tile by tile. -/
theorem sum_tiles {M : Type*} [AddCommMonoid M] (T K : ℕ) (g : Fin (T * K) → M) :
    ∑ k : Fin (T * K), g k = ∑ s : Fin T, ∑ kk : Fin K, g (at_ s kk) := by
  rw [← Equiv.sum_comp finProdFinEquiv g, Fintype.sum_prod_type]
  refine Finset.sum_congr rfl fun s _ => Finset.sum_congr rfl fun kk _ => congrArg g (Fin.ext ?_)
  show kk.val + K * s.val = K * s.val + kk.val
  exact Nat.add_comm _ _

end Cert.SumTiles
-- ==== Proof.Spec.lean ====
/-
  The function both programs compute, over the extended reals, index by index.

  With x the [64, 4096] activations and Wg, Wu ([14336, 4096]) and Wd ([4096, 14336]) the three de-quantised weight
  arrays, the gate and up projections of row b at intermediate column i are
      g = ∑ h, x (b, h) · Wg (i, h),      u = ∑ h, x (b, h) · Wu (i, h),
  the hidden value is (g · logistic g) · u, and the result at (b, n) is ∑ i, hidden (b, i) · Wd (n, i).
  The kernel reaches the last sum tile by tile (28 tiles of 512 intermediate columns, added to a running total that
  starts at zero); regrouping a finite sum needs only that addition on the extended reals is commutative and
  associative, so no input need be finite.
-/
import Idealize.ShloMosaic.PureOps.Ideal
import Idealize.ShloMosaic.Lib.ValueIdx
import proofs.«128673_j42176578847199_1_alg».proof.Proof.LibSumTiles

noncomputable section

open scoped BigOperators

namespace Cert.Spec

open Idealize.ShloMosaic Idealize.ShloMosaic.ValueIdx

/-- Activations, and the result: [64, 4096]. -/
abbrev SX : Shape := ⟨2, ![64, 4096]⟩
/-- Gate and up weights, one row per intermediate column: [14336, 4096]. -/
abbrev SW : Shape := ⟨2, ![14336, 4096]⟩
/-- Down weights, one row per output column: [4096, 14336]. -/
abbrev SD : Shape := ⟨2, ![4096, 14336]⟩
/-- The hidden array: [64, 14336]. -/
abbrev SH : Shape := ⟨2, ![64, 14336]⟩

/-- Row `b` of the activations against row `i` of a weight array. -/
def proj (x : SX.Idx → EReal) (w : SW.Idx → EReal) (b : Fin 64) (i : Fin 14336) : EReal :=
  ∑ h : Fin 4096, x (ix2 b h) * w (ix2 i h)

/-- The hidden value at (b, i): silu of the gate projection times the up projection. -/
def hiddenAt (x : SX.Idx → EReal) (wg wu : SW.Idx → EReal) (b : Fin 64) (i : Fin 14336) : EReal :=
  (proj x wg b i * Ideal.logistic (proj x wg b i)) * proj x wu b i

/-- The hidden array. -/
def hidden (x : SX.Idx → EReal) (wg wu : SW.Idx → EReal) : SH.Idx → EReal :=
  fun j => hiddenAt x wg wu (j 0) (j 1)

theorem hidden_ix2 (x : SX.Idx → EReal) (wg wu : SW.Idx → EReal) (b : Fin 64) (i : Fin 14336) :
    hidden x wg wu (ix2 b i) = hiddenAt x wg wu b i := rfl

/-- The down projection of ANY hidden array `hd` at (b, n). -/
def downAt (hd : SH.Idx → EReal) (wd : SD.Idx → EReal) (b : Fin 64) (n : Fin 4096) : EReal :=
  ∑ i : Fin 14336, hd (ix2 b i) * wd (ix2 n i)

/-- The result at (b, n). -/
def outAt (x : SX.Idx → EReal) (wg wu : SW.Idx → EReal) (wd : SD.Idx → EReal) (b : Fin 64) (n : Fin 4096) : EReal :=
  downAt (hidden x wg wu) wd b n

/-- The result array. -/
def out (x : SX.Idx → EReal) (wg wu : SW.Idx → EReal) (wd : SD.Idx → EReal) : SX.Idx → EReal :=
  fun j => outAt x wg wu wd (j 0) (j 1)

theorem out_ix2 (x : SX.Idx → EReal) (wg wu : SW.Idx → EReal) (wd : SD.Idx → EReal) (b : Fin 64) (n : Fin 4096) :
    out x wg wu wd (ix2 b n) = outAt x wg wu wd b n := rfl

/-- Intermediate column `k` of tile `s` (28 tiles of 512 columns). -/
def col (s : Fin 28) (k : Fin 512) : Fin 14336 := Cert.SumTiles.at_ (T := 28) (K := 512) s k

theorem col_val (s : Fin 28) (k : Fin 512) : (col s k).val = 512 * s.val + k.val := rfl

/-- Tile `s`'s share of the down projection at (b, n). -/
def tileAt (hd : SH.Idx → EReal) (wd : SD.Idx → EReal) (s : Fin 28) (b : Fin 64) (n : Fin 4096) : EReal :=
  ∑ k : Fin 512, hd (ix2 b (col s k)) * wd (ix2 n (col s k))

/-- The down projection is the sum of the 28 tiles' shares. -/
theorem downAt_eq_sum_tiles (hd : SH.Idx → EReal) (wd : SD.Idx → EReal) (b : Fin 64) (n : Fin 4096) :
    downAt hd wd b n = ∑ s : Fin 28, tileAt hd wd s b n :=
  Cert.SumTiles.sum_tiles 28 512 (fun i : Fin (28 * 512) => hd (ix2 b i) * wd (ix2 n i))

/-- The running total after tiles 0 … n, started from zero. -/
def runningAt (hd : SH.Idx → EReal) (wd : SD.Idx → EReal) (b : Fin 64) (n : Fin 4096) : (t : ℕ) → t < 28 → EReal
  | 0, h => 0 + tileAt hd wd ⟨0, h⟩ b n
  | t + 1, h => runningAt hd wd b n t (Nat.lt_of_succ_lt h) + tileAt hd wd ⟨t + 1, h⟩ b n

/-- The running total after tile `t` is the sum of the shares of tiles 0 … t. -/
theorem runningAt_eq (hd : SH.Idx → EReal) (wd : SD.Idx → EReal) (b : Fin 64) (n : Fin 4096) :
    ∀ (t : ℕ) (h : t < 28), runningAt hd wd b n t h = ∑ s ∈ Finset.univ.filter (fun s : Fin 28 => s.val ≤ t), tileAt hd wd s b n
  | 0, h => by
    rw [runningAt, zero_add]
    have : (Finset.univ.filter fun s : Fin 28 => s.val ≤ 0) = {⟨0, h⟩} := by
      ext s; simp only [Finset.mem_filter, Finset.mem_univ, true_and, Finset.mem_singleton, Fin.ext_iff]; omega
    rw [this, Finset.sum_singleton]
  | t + 1, h => by
    rw [runningAt, runningAt_eq hd wd b n t (Nat.lt_of_succ_lt h)]
    have : (Finset.univ.filter fun s : Fin 28 => s.val ≤ t + 1)
        = insert (⟨t + 1, h⟩ : Fin 28) (Finset.univ.filter fun s : Fin 28 => s.val ≤ t) := by
      ext s; simp only [Finset.mem_filter, Finset.mem_univ, true_and, Finset.mem_insert, Fin.ext_iff]; omega
    rw [this, Finset.sum_insert (by simp only [Finset.mem_filter, Finset.mem_univ, true_and]; omega), add_comm]

/-- After the last tile the running total is the whole down projection. -/
theorem runningAt_last (hd : SH.Idx → EReal) (wd : SD.Idx → EReal) (b : Fin 64) (n : Fin 4096) :
    runningAt hd wd b n 27 (by decide) = downAt hd wd b n := by
  rw [runningAt_eq, downAt_eq_sum_tiles]
  refine Finset.sum_congr ?_ fun _ _ => rfl
  ext s; simp only [Finset.mem_filter, Finset.mem_univ, true_and, iff_true]; have := s.isLt; omega

end Cert.Spec

end
-- ==== Proof.LibMatmulTransposedRhs.lean ====
/-
  A general lemma. The matrix product of an [M, K] array by the TRANSPOSE of an [N, K] array (both operands
  contracted on their second axis, no batch axes), accumulated into the zero array and read at the exact
  instance, is at entry (p, q) the finite sum over the contraction coordinate k of left (p, k) · right (q, k).
  It holds for all sizes and both operands' formats.
-/
import Idealize.ShloMosaic.Lib.ValueIdx
import Idealize.ShloMosaic.PureOps.Ideal.Laws

namespace Idealize.ShloMosaic.MatmulTransposedRhs

open Idealize.ShloMosaic Idealize.ShloMosaic.ValueIdx

variable {M K N : ℕ}

/-- The left operand's row coordinate is the result's row coordinate. -/
theorem lhs_row (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction coordinate. -/
theorem lhs_col (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row coordinate is the result's column coordinate. -/
theorem rhs_row (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction coordinate. -/
theorem rhs_col (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- Entry (p, q) of the product by the transpose, into a zero accumulator, is ∑ k, left (p, k) · right (q, k). -/
theorem matmul_zero_apply {φ₁ φ₂ : FTy} (prec : Option ContractPrecision)
    (l : FVec Ideal ⟨2, ![M, K]⟩ φ₁) (r : FVec Ideal ⟨2, ![N, K]⟩ φ₂) (p : Fin M) (q : Fin N) :
    matmul (DotDims.transposedRhs M K N) prec l r (constant ⟨2, ![M, N]⟩ .f32 0x00000000#32) (ix2 p q)
      = ∑ k : Fin K, l (ix2 p k) * r (ix2 q k) := by
  show FloatOps.matmul (DotDims.transposedRhs M K N) prec l r (constant ⟨2, ![M, N]⟩ .f32 0x00000000#32) (ix2 p q) = _
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

end Idealize.ShloMosaic.MatmulTransposedRhs
-- ==== Proof.Val.Stage1.lean ====
/- What the first pallas_call leaves in its output array, at the exact instance: every grid point writes back its block
   of ONE whole-array function, the hidden array of the specification read off the region's three input arrays (the
   activations' one block is the whole array; tile t of a weight array is its rows 512·t … 512·t + 511; the output's
   tile t is columns 512·t … 512·t + 511), and the 28 blocks tile the array. -/
import proofs.«128673_j42176578847199_1_alg».proof.Proof.KI.Region0
import proofs.«128673_j42176578847199_1_alg».proof.Proof.Spec
import proofs.«128673_j42176578847199_1_alg».proof.Proof.LibMatmulTransposedRhs
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

/-- The printed dimension numbers of the two projections are those of a product by the transpose. -/
private theorem dot_proj_eq : dot_S64x4096_S512x4096_S64x512_1_1_0_0_n_n = DotDims.transposedRhs 64 4096 512 := rfl

/-- The body's payload at an entry: silu of the gate product times the up product, the two products sums over the
    4096 contracted columns (a change of float format is the identity on the extended reals). -/
theorem pay1_apply (x0 : FVec Ideal S64x4096 .bf16) (x1 x2 : FVec Ideal S512x4096 .bf16) (b : Fin 64) (k : Fin 512) :
    k0_pay1 (F := Ideal) x0 x1 x2 (ix2 b k)
      = ((∑ h : Fin 4096, x0 (ix2 b h) * x1 (ix2 k h)) * Ideal.logistic (∑ h : Fin 4096, x0 (ix2 b h) * x1 (ix2 k h)))
          * (∑ h : Fin 4096, x0 (ix2 b h) * x2 (ix2 k h)) := by
  unfold k0_pay1
  rw [shapeCast_self, shapeCast_self, shapeCast_self, dot_proj_eq]
  show ((matmul (DotDims.transposedRhs 64 4096 512) none x0 x1 (constant ⟨2, ![64, 512]⟩ .f32 0x00000000#32) (ix2 b k))
        * Ideal.logistic (matmul (DotDims.transposedRhs 64 4096 512) none x0 x1 (constant ⟨2, ![64, 512]⟩ .f32 0x00000000#32) (ix2 b k)))
      * (matmul (DotDims.transposedRhs 64 4096 512) none x0 x2 (constant ⟨2, ![64, 512]⟩ .f32 0x00000000#32) (ix2 b k)) = _
  rw [MatmulTransposedRhs.matmul_zero_apply none x0 x1 b k, MatmulTransposedRhs.matmul_zero_apply none x0 x2 b k]

/-- The zero offsets of a whole-block rectangle, as the constant function. -/
private theorem off_zero : (![0, 0] : Fin 2 → Nat) = fun _ => 0 := funext fun a => by fin_cases a <;> rfl

/-- The four index maps over the 28 points: the activations' block stays at (0, 0); a weight array's block at point t is
    row block t; the output's is column block t. -/
private theorem tile_index : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

/-- Tile s of the hidden array from blocks that are the activations and rows 512·s … of the two weight arrays. -/
private theorem tile_hidden (X : Cert.Spec.SX.Idx → EReal) (Wg Wu : Cert.Spec.SW.Idx → EReal)
    (x0 : FVec Ideal S64x4096 .bf16) (x1 x2 : FVec Ideal S512x4096 .bf16) (s : Fin 28)
    (h0 : ∀ (b : Fin 64) (h : Fin 4096), x0 (ix2 b h) = X (ix2 b h))
    (h1 : ∀ (k : Fin 512) (h : Fin 4096), x1 (ix2 k h) = Wg (ix2 (Cert.Spec.col s k) h))
    (h2 : ∀ (k : Fin 512) (h : Fin 4096), x2 (ix2 k h) = Wu (ix2 (Cert.Spec.col s k) h))
    (b : Fin 64) (k : Fin 512) :
    k0_pay1 (F := Ideal) x0 x1 x2 (ix2 b k) = Cert.Spec.hiddenAt X Wg Wu b (Cert.Spec.col s k) := by
  rw [pay1_apply]
  unfold Cert.Spec.hiddenAt Cert.Spec.proj
  simp only [h0, h1, h2]

/-- What point t writes back is its block of the hidden array: entry (b, k) of the payload of the three blocks is the
    hidden value at (b, 512·t + k), the blocks' entries being the arrays' at block index × block size + the entry's own. -/
private theorem tile_written (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (Cert.Spec.hidden (V c main_v48) (V c main_v15) (V c main_v31)) := by
  show (cfg0.win 3).cut (grid0.coords t) ((dat0 V c).after 3 t) = _
  rw [after0_3]
  unfold out0_3
  rw [View.canon_unit_zero off_zero]
  simp only [View.ld_unit_zero (S := S64x4096) off_zero, View.ld_unit_zero (S := S512x4096) off_zero]
  obtain ⟨e00, e01, e10, e11, e20, e21, e30, e31⟩ := tile_index t
  have hN : grid0.N = 28 := Gen.N_0
  have ht : t.val < 28 := hN ▸ t.isLt
  funext y
  have hy0 : (y 0).val < 64 := (y 0).isLt
  have hy1 : (y 1).val < 512 := (y 1).isLt
  show k0_pay1 (F := Ideal) (iblk0 V c 0 t) (iblk0 V c 1 t) (iblk0 V c 2 t) ((cfg0.win 3).xinj (grid0.coords t) y)
      = Cert.Spec.hidden (V c main_v48) (V c main_v15) (V c main_v31) (((cfg0.win 3).blk t).view.emb y)
  have hin : (cfg0.win 3).xinj (grid0.coords t) y = ix2 (⟨(y 0).val, hy0⟩ : Fin 64) (⟨(y 1).val, hy1⟩ : Fin 512) :=
    funext fun a => by match a with | ⟨0, _⟩ => rfl | ⟨1, _⟩ => rfl
  have hout : ((cfg0.win 3).blk t).view.emb y
      = ix2 (⟨(y 0).val, hy0⟩ : Fin 64) (Cert.Spec.col ⟨t.val, ht⟩ (⟨(y 1).val, hy1⟩ : Fin 512)) :=
    funext fun a => Fin.ext (by
      match a with
      | ⟨0, _⟩ => show win0_3.index t (0 : Fin 2) * 64 + 1 * (y 0).val = (y 0).val; omega
      | ⟨1, _⟩ => show win0_3.index t (1 : Fin 2) * 512 + 1 * (y 1).val = 512 * t.val + (y 1).val; omega)
  rw [hin, hout, Cert.Spec.hidden_ix2]
  refine tile_hidden (V c main_v48) (V c main_v15) (V c main_v31) _ _ _ ⟨t.val, ht⟩ ?_ ?_ ?_ _ _
  · intro b h
    show V c main_v48 (((cfg0.win 0).blk t).view.emb (ix2 b h)) = V c main_v48 (ix2 b h)
    refine congrArg (V c main_v48) (funext fun a => Fin.ext ?_)
    match a with
    | ⟨0, _⟩ => show win0_0.index t (0 : Fin 2) * 64 + 1 * b.val = b.val; omega
    | ⟨1, _⟩ => show win0_0.index t (1 : Fin 2) * 4096 + 1 * h.val = h.val; omega
  · intro k h
    show V c main_v15 (((cfg0.win 1).blk t).view.emb (ix2 k h)) = V c main_v15 (ix2 (Cert.Spec.col ⟨t.val, ht⟩ k) h)
    refine congrArg (V c main_v15) (funext fun a => Fin.ext ?_)
    match a with
    | ⟨0, _⟩ => show win0_1.index t (0 : Fin 2) * 512 + 1 * k.val = 512 * t.val + k.val; omega
    | ⟨1, _⟩ => show win0_1.index t (1 : Fin 2) * 4096 + 1 * h.val = h.val; omega
  · intro k h
    show V c main_v31 (((cfg0.win 2).blk t).view.emb (ix2 k h)) = V c main_v31 (ix2 (Cert.Spec.col ⟨t.val, ht⟩ k) h)
    refine congrArg (V c main_v31) (funext fun a => Fin.ext ?_)
    match a with
    | ⟨0, _⟩ => show win0_2.index t (0 : Fin 2) * 512 + 1 * k.val = 512 * t.val + k.val; omega
    | ⟨1, _⟩ => show win0_2.index t (1 : Fin 2) * 4096 + 1 * h.val = h.val; omega

/-- An index of the [64, 14336] array lies in point t's block iff each coordinate is in the block's range on its axis. -/
private theorem mem_tile (t : Fin cfg0.N) (i : S64x14336.Idx) :
    i ∈ ((cfg0.win 3).blk t).view.set
      ↔ ∀ a : Fin 2, win0_3.index t a * S64x512.size a ≤ (i a).val ∧ (i a).val < win0_3.index t a * S64x512.size a + S64x512.size a := by
  show i ∈ ((View.whole main_v49).slice (win0_3.rect t)).set ↔ _
  rw [View.set_slice_whole, Rect.mem_set_unit]
  exact Iff.rfl

/-- Column i of the hidden array lies in the tile of point i / 512, which writes its block back. -/
private theorem tiles_cover (i : S64x14336.Idx) :
    ∃ t : Fin cfg0.N, (cfg0.win 3).flush t = true ∧ i ∈ ((cfg0.win 3).blk t).view.set := by
  have hN : grid0.N = 28 := Gen.N_0
  have hi0 : (i 0).val < 64 := (i 0).isLt
  have hi1 : (i 1).val < 14336 := (i 1).isLt
  have hq : (i 1).val / 512 < grid0.N := by rw [hN]; omega
  obtain ⟨-, -, -, -, -, -, e30, e31⟩ := tile_index ⟨(i 1).val / 512, hq⟩
  have e31' : win0_3.index ⟨(i 1).val / 512, hq⟩ (1 : Fin 2) = (i 1).val / 512 := e31
  refine ⟨⟨(i 1).val / 512, hq⟩, flush0_3 _, ?_⟩
  rw [mem_tile]
  intro a
  match a with
  | ⟨0, _⟩ =>
    show win0_3.index ⟨(i 1).val / 512, hq⟩ (0 : Fin 2) * 64 ≤ (i 0).val
      ∧ (i 0).val < win0_3.index ⟨(i 1).val / 512, hq⟩ (0 : Fin 2) * 64 + 64
    omega
  | ⟨1, _⟩ =>
    show win0_3.index ⟨(i 1).val / 512, hq⟩ (1 : Fin 2) * 512 ≤ (i 1).val
      ∧ (i 1).val < win0_3.index ⟨(i 1).val / 512, hq⟩ (1 : Fin 2) * 512 + 512
    omega

/-- The first region's output array after its 28 write-backs is the hidden array of its three input arrays. -/
theorem stage1_final (V : (c : Dev nD) → (b : Ref sig .tc) → Buf (Elt Ideal) ((c : Thread nD τ).loc b)) (c : Dev nD) :
    (dat0 (F := Ideal) V c).arrAt 3 cfg0.N = Cert.Spec.hidden (V c main_v48) (V c main_v15) (V c main_v31) := by
  exact (dat0 (F := Ideal) V c).arrAt_eq_of_cover 3 (Cert.Spec.hidden (V c main_v48) (V c main_v15) (V c main_v31))
    (fun t _ => tile_written V c t) tiles_cover

end Cert.KernelIdeal.Val

end
-- ==== Proof.Val.Stage2.lean ====
/- What the second pallas_call leaves in its output array, at the exact instance: the scratch after point t holds, at
   (b, n), the running total of the tiles' shares of the down projection up to tile t (zero plus tile 0's share at the
   first point, then one more share per point), read off the region's two input arrays; the one write-back, at the last
   point, copies the scratch to the whole array, which therefore ends at the whole down projection. -/
import proofs.«128673_j42176578847199_1_alg».proof.Proof.KI.Region1
import proofs.«128673_j42176578847199_1_alg».proof.Proof.Spec
import proofs.«128673_j42176578847199_1_alg».proof.Proof.LibMatmulTransposedRhs
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

/-- The kernel's contraction record is the product of a [64, 512] array by the transpose of a [4096, 512] array. -/
private theorem dot_eq :
    dot_S64x512_S4096x512_S64x4096_1_1_0_0_n_n = DotDims.transposedRhs 64 512 4096 := rfl

/-- The accumulating payload at an entry: what the scratch held plus the tile's product, a sum over its 512 columns. -/
theorem pay2_apply (x0 : FVec Ideal S64x512 .bf16) (x1 : FVec Ideal S4096x512 .bf16) (xs : FVec Ideal S64x4096 .f32)
    (b : Fin 64) (n : Fin 4096) :
    k1_pay2 (F := Ideal) x0 x1 xs (ix2 b n) = xs (ix2 b n) + ∑ k : Fin 512, x0 (ix2 b k) * x1 (ix2 n k) := by
  unfold k1_pay2
  simp only [shapeCast_self]
  refine (addf_apply _ _ _).trans ?_
  refine congrArg (fun z => xs (ix2 b n) + z) ?_
  exact MatmulTransposedRhs.matmul_zero_apply (M := 64) (K := 512) (N := 4096) none x0 x1 b n

/-- The resetting payload is zero everywhere. -/
theorem pay1_zero (j : S64x4096.Idx) : (k1_pay1 (F := Ideal)) j = 0 := by
  unfold k1_pay1
  simp only [shapeCast_self]
  exact (broadcast_apply _ _).trans Ideal.ofBits_zero_f32

/-- Window 0's block index at a point: row block 0, column block the point's number. -/
private theorem index0 : ∀ t : Fin cfg1.N, win1_0.index t 0 = 0 ∧ win1_0.index t 1 = t.val :=
  (by decide +kernel : ∀ t : Fin grid1.N, win1_0.index t 0 = 0 ∧ win1_0.index t 1 = t.val)

/-- Window 1's block index at a point: row block 0, column block the point's number. -/
private theorem index1 : ∀ t : Fin cfg1.N, win1_1.index t 0 = 0 ∧ win1_1.index t 1 = t.val :=
  (by decide +kernel : ∀ t : Fin grid1.N, win1_1.index t 0 = 0 ∧ win1_1.index t 1 = t.val)

/-- The hidden array's block at point t. -/
private abbrev hblk (V : (c : Dev nD) → (b : Ref sig .tc) → Buf (Elt Ideal) ((c : Thread nD τ).loc b)) (c : Dev nD)
    (t : Fin cfg1.N) : FVec Ideal S64x512 .bf16 := iblk1 (F := Ideal) V c 0 t

/-- The down weights' block at point t. -/
private abbrev wblk (V : (c : Dev nD) → (b : Ref sig .tc) → Buf (Elt Ideal) ((c : Thread nD τ).loc b)) (c : Dev nD)
    (t : Fin cfg1.N) : FVec Ideal S4096x512 .bf16 := iblk1 (F := Ideal) V c 1 t

/-- Entry (b, k) of the hidden array's block at point t is the hidden array at row b, column k of tile t. -/
private theorem blk0_apply (V : (c : Dev nD) → (b : Ref sig .tc) → Buf (Elt Ideal) ((c : Thread nD τ).loc b)) (c : Dev nD)
    (t : Fin cfg1.N) (s : Fin 28) (hs : s.val = t.val) (b : Fin 64) (k : Fin 512) :
    hblk V c t (ix2 b k) = (V c main_v49 : S64x14336.Idx → EReal) (ix2 b (Cert.Spec.col s k)) := by
  unfold hblk iblk1
  rw [View.read_apply]
  show V c main_v49 _ = V c main_v49 _
  congr 1
  funext a
  apply Fin.ext
  match a with
  | ⟨0, _⟩ => show win1_0.index t 0 * 64 + 1 * b.val = b.val; rw [(index0 t).1]; omega
  | ⟨1, _⟩ => show win1_0.index t 1 * 512 + 1 * k.val = 512 * s.val + k.val; rw [(index0 t).2, hs]; omega

/-- Entry (q, k) of the down weights' block at point t is the weight array at row q, column k of tile t. -/
private theorem blk1_apply (V : (c : Dev nD) → (b : Ref sig .tc) → Buf (Elt Ideal) ((c : Thread nD τ).loc b)) (c : Dev nD)
    (t : Fin cfg1.N) (s : Fin 28) (hs : s.val = t.val) (q : Fin 4096) (k : Fin 512) :
    wblk V c t (ix2 q k) = (V c main_v47 : S4096x14336.Idx → EReal) (ix2 q (Cert.Spec.col s k)) := by
  unfold wblk iblk1
  rw [View.read_apply]
  show V c main_v47 _ = V c main_v47 _
  congr 1
  funext a
  apply Fin.ext
  match a with
  | ⟨0, _⟩ => show win1_1.index t 0 * 4096 + 1 * q.val = q.val; rw [(index1 t).1]; omega
  | ⟨1, _⟩ => show win1_1.index t 1 * 512 + 1 * k.val = 512 * s.val + k.val; rw [(index1 t).2, hs]; omega

/-- Tile t's share of the down projection at (b, q), as a sum over the entries of the two blocks of point t. -/
private theorem tile_eq (V : (c : Dev nD) → (b : Ref sig .tc) → Buf (Elt Ideal) ((c : Thread nD τ).loc b)) (c : Dev nD)
    (t : Fin cfg1.N) (s : Fin 28) (hs : s.val = t.val) (b : Fin 64) (q : Fin 4096) :
    ∑ k : Fin 512, hblk V c t (ix2 b k) * wblk V c t (ix2 q k)
      = Cert.Spec.tileAt (V c main_v49) (V c main_v47) s b q := by
  unfold Cert.Spec.tileAt
  refine Finset.sum_congr rfl fun k _ => ?_
  rw [blk0_apply V c t s hs b k, blk1_apply V c t s hs q k]

/-- The scratch after point n holds, at (b, q), the running total of the shares of tiles 0 … n. -/
private theorem acc1_apply (V : (c : Dev nD) → (b : Ref sig .tc) → Buf (Elt Ideal) ((c : Thread nD τ).loc b)) (c : Dev nD)
    (b : Fin 64) (q : Fin 4096) :
    ∀ (n : ℕ) (hn : n < cfg1.N) (h28 : n < 28),
      (acc1 (F := Ideal) V c n hn : Vec Ideal S64x4096 .f32) (ix2 b q)
        = Cert.Spec.runningAt (V c main_v49) (V c main_v47) b q n h28
  | 0, hn, h28 => by
    rw [acc1_zero, Cert.Spec.runningAt]
    refine (pay2_apply (hblk V c ⟨0, hn⟩) (wblk V c ⟨0, hn⟩) (k1_pay1 (F := Ideal)) b q).trans ?_
    rw [pay1_zero, tile_eq V c ⟨0, hn⟩ ⟨0, h28⟩ rfl b q]
  | n + 1, hn, h28 => by
    rw [acc1_succ, Cert.Spec.runningAt]
    refine (pay2_apply (hblk V c ⟨n + 1, hn⟩) (wblk V c ⟨n + 1, hn⟩)
      (acc1 (F := Ideal) V c n (Nat.lt_of_succ_lt hn)) b q).trans ?_
    rw [acc1_apply V c b q n (Nat.lt_of_succ_lt hn) (Nat.lt_of_succ_lt h28), tile_eq V c ⟨n + 1, hn⟩ ⟨n + 1, h28⟩ rfl b q]

/-- After the last of the 28 points the scratch holds the whole down projection. -/
private theorem acc1_last (V : (c : Dev nD) → (b : Ref sig .tc) → Buf (Elt Ideal) ((c : Thread nD τ).loc b)) (c : Dev nD)
    (n : ℕ) (hn : n < cfg1.N) (h27 : n = 27) (j : S64x4096.Idx) :
    (acc1 (F := Ideal) V c n hn : Vec Ideal S64x4096 .f32) j
      = Cert.Spec.downAt (V c main_v49) (V c main_v47) (j 0) (j 1) := by
  subst h27
  obtain ⟨b, q, rfl⟩ : ∃ (b : Fin 64) (q : Fin 4096), j = ix2 b q := ⟨j 0, j 1, eq_ix2 j⟩
  rw [acc1_apply V c b q 27 hn (by decide), Cert.Spec.runningAt_last]

/-- The output window's block index is (0, 0) at every point: its one block is the whole array. -/
private theorem index2 : ∀ (t : Fin cfg1.N) (a : Fin 2), win1_2.index t a = 0 :=
  (by decide +kernel : ∀ (t : Fin grid1.N) (a : Fin 2), win1_2.index t a = 0)

/-- The output window's block is nowhere cut short. -/
private theorem xsize2 : ∀ t : Fin cfg1.N, win1_2.xsize (grid1.coords t) 0 = 64 ∧ win1_2.xsize (grid1.coords t) 1 = 4096 :=
  (by decide +kernel : ∀ t : Fin grid1.N, win1_2.xsize (grid1.coords t) 0 = 64 ∧ win1_2.xsize (grid1.coords t) 1 = 4096)

/-- The second region's output array after its one write-back is the down projection of its two input arrays. -/
theorem stage2_final (V : (c : Dev nD) → (b : Ref sig .tc) → Buf (Elt Ideal) ((c : Thread nD τ).loc b)) (c : Dev nD) :
    (dat1 (F := Ideal) V c).arrAt 2 cfg1.N
      = fun j : Cert.Spec.SX.Idx => Cert.Spec.downAt (V c main_v49) (V c main_v47) (j 0) (j 1) := by
  have hN : cfg1.N = 28 := N_1
  refine (dat1 (F := Ideal) V c).arrAt_eq_of_cover 2
    (fun j : Cert.Spec.SX.Idx => Cert.Spec.downAt (V c main_v49) (V c main_v47) (j 0) (j 1)) (fun t hf => ?_) (fun i => ?_)
  · -- the one write-back copies the scratch after the last point, entry by entry
    have h27 : t.val = 27 := by have := (flush1_2 t).mp hf; have := t.isLt; omega
    show (cfg1.win 2).cut (grid1.coords t) ((dat1 (F := Ideal) V c).after 2 t) = _
    rw [after1_2]
    funext y
    rw [View.read_apply]
    have e : ((cfg1.win 2).blk t).view.emb y = ((cfg1.win 2).xinj (grid1.coords t) y : S64x4096.Idx) := by
      funext a
      apply Fin.ext
      refine (Pipeline.Window.rect_emb_val win1_2 t y a).trans ?_
      rw [index2 t a]
      show 0 * win1_2.size a + (y a).val = (y a).val
      omega
    rw [e]
    exact acc1_last V c t.val t.isLt h27 _
  · -- the last point's block is the whole array
    obtain ⟨tL, htL⟩ : ∃ t : Fin cfg1.N, t.val = 27 := ⟨⟨27, by decide⟩, rfl⟩
    refine ⟨tL, (flush1_2 tL).mpr (by rw [htL]), ?_⟩
    show i ∈ ((View.whole main_v50).slice (win1_2.rect tL)).set
    rw [View.set_slice_whole, Rect.mem_set_unit]
    intro a
    have h0 : (i 0 : Nat) < 64 := (i 0).isLt
    have h1 : (i 1 : Nat) < 4096 := (i 1).isLt
    match a with
    | ⟨0, _⟩ =>
      show win1_2.index tL 0 * win1_2.size 0 ≤ (i 0 : Nat)
        ∧ (i 0 : Nat) < win1_2.index tL 0 * win1_2.size 0 + win1_2.xsize (grid1.coords tL) 0
      rw [index2 tL 0, (xsize2 tL).1]; omega
    | ⟨1, _⟩ =>
      show win1_2.index tL 1 * win1_2.size 1 ≤ (i 1 : Nat)
        ∧ (i 1 : Nat) < win1_2.index tL 1 * win1_2.size 1 + win1_2.xsize (grid1.coords tL) 1
      rw [index2 tL 1, (xsize2 tL).2]; omega

end Cert.KernelIdeal.Val

end
-- ==== Proof.RefImports.lean ====
/- The reference's run and its stages read at an index, gathered in one place so that the value modules import them once. -/
import proofs.«128673_j42176578847199_1_alg».proof.Proof.Gen.ReferenceIdeal.Read
-- ==== Proof.Val.Host.lean ====
/- What the host operations leave for the first pallas_call, at the exact instance: the activations rounded to bf16,
   which on the extended reals is the activations themselves, and the three de-quantised weight arrays rounded likewise,
   each the SAME operations of the same arguments as the reference's weight stage (a table lookup, the row signs, the
   column signs, the scale), so each is that stage, never opened. -/
import proofs.«128673_j42176578847199_1_alg».proof.Proof.KI.Run
import proofs.«128673_j42176578847199_1_alg».proof.Proof.RefImports
import Idealize.ShloMosaic.Lib.StableHlo.Run
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx Idealize.ShloMosaic.StableHlo
open Cert.KernelIdeal Cert.KernelIdeal.Gen Cert.KernelIdeal.Hand

variable {F : FTy → Type} [FloatOps F]
variable (m : (ℓ : Loc nD τ sig) → Buf (Elt F) ℓ)

set_option maxHeartbeats 4000000 in
/-- The rounded activations. -/
theorem E1_x_F (c : Dev nD) :
    E1 m c main_v48 = truncf .bf16 (m ((c : Thread nD τ).loc main_arg0)) bitsLt_bf16_f32 := by
  show StableHlo.after hostOps0 (fun b => m (c, b)) (Proc.devRef .tc main_v48) = _
  after_results_simp <;> rfl

set_option maxHeartbeats 4000000 in
/-- The rounded gate weights: the reference's gate-weight stage of the same arguments. -/
theorem E1_wg_F (c : Dev nD) :
    E1 m c main_v15 = truncf .bf16 (Cert.ReferenceIdeal.Read.val_main_v14 (F := F) (m ((c : Thread nD τ).loc main_arg1))
      (m ((c : Thread nD τ).loc main_arg4)) (m ((c : Thread nD τ).loc main_arg7)) (m ((c : Thread nD τ).loc main_arg8))) bitsLt_bf16_f32 := by
  show StableHlo.after hostOps0 (fun b => m (c, b)) (Proc.devRef .tc main_v15) = _
  after_results_simp <;> rfl

set_option maxHeartbeats 4000000 in
/-- The rounded up weights: the reference's up-weight stage of the same arguments. -/
theorem E1_wu_F (c : Dev nD) :
    E1 m c main_v31 = truncf .bf16 (Cert.ReferenceIdeal.Read.val_main_v29 (F := F) (m ((c : Thread nD τ).loc main_arg2))
      (m ((c : Thread nD τ).loc main_arg5)) (m ((c : Thread nD τ).loc main_arg9)) (m ((c : Thread nD τ).loc main_arg10))) bitsLt_bf16_f32 := by
  show StableHlo.after hostOps0 (fun b => m (c, b)) (Proc.devRef .tc main_v31) = _
  after_results_simp <;> rfl

set_option maxHeartbeats 4000000 in
/-- The rounded down weights: the reference's down-weight stage of the same arguments. -/
theorem E1_wd_F (c : Dev nD) :
    E1 m c main_v47 = truncf .bf16 (Cert.ReferenceIdeal.Read.val_main_v44 (F := F) (m ((c : Thread nD τ).loc main_arg3))
      (m ((c : Thread nD τ).loc main_arg6)) (m ((c : Thread nD τ).loc main_arg11)) (m ((c : Thread nD τ).loc main_arg12))) bitsLt_bf16_f32 := by
  show StableHlo.after hostOps0 (fun b => m (c, b)) (Proc.devRef .tc main_v47) = _
  after_results_simp <;> rfl

/-! On the extended reals a change of float format is the identity. -/

variable (mI : (ℓ : Loc nD τ sig) → Buf (Elt Ideal) ℓ)

theorem E1_x (c : Dev nD) : E1 mI c main_v48 = mI ((c : Thread nD τ).loc main_arg0) :=
  (E1_x_F mI c).trans (funext fun i => truncf_apply _ _ i)

theorem E1_wg (c : Dev nD) :
    E1 mI c main_v15 = Cert.ReferenceIdeal.Read.val_main_v14 (F := Ideal) (mI ((c : Thread nD τ).loc main_arg1))
      (mI ((c : Thread nD τ).loc main_arg4)) (mI ((c : Thread nD τ).loc main_arg7)) (mI ((c : Thread nD τ).loc main_arg8)) :=
  (E1_wg_F mI c).trans (funext fun i => truncf_apply _ _ i)

theorem E1_wu (c : Dev nD) :
    E1 mI c main_v31 = Cert.ReferenceIdeal.Read.val_main_v29 (F := Ideal) (mI ((c : Thread nD τ).loc main_arg2))
      (mI ((c : Thread nD τ).loc main_arg5)) (mI ((c : Thread nD τ).loc main_arg9)) (mI ((c : Thread nD τ).loc main_arg10)) :=
  (E1_wu_F mI c).trans (funext fun i => truncf_apply _ _ i)

theorem E1_wd (c : Dev nD) :
    E1 mI c main_v47 = Cert.ReferenceIdeal.Read.val_main_v44 (F := Ideal) (mI ((c : Thread nD τ).loc main_arg3))
      (mI ((c : Thread nD τ).loc main_arg6)) (mI ((c : Thread nD τ).loc main_arg11)) (mI ((c : Thread nD τ).loc main_arg12)) :=
  (E1_wd_F mI c).trans (funext fun i => truncf_apply _ _ i)

end Cert.KernelIdeal.Val

end
-- ==== Proof.Val.Final.lean ====
/- The kernel's result array, at the exact instance, is the specification's function of the arguments: the second
   region leaves the down projection of the array the first region left, which is the hidden array of what the host
   operations left, which are the activations and the reference's three weight stages of the arguments. -/
import proofs.«128673_j42176578847199_1_alg».proof.Proof.KI.Run
import proofs.«128673_j42176578847199_1_alg».proof.Proof.Val.Stage1
import proofs.«128673_j42176578847199_1_alg».proof.Proof.Val.Stage2
import proofs.«128673_j42176578847199_1_alg».proof.Proof.Val.Host

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (m : (ℓ : Loc nD τ sig) → Buf (Elt Ideal) ℓ)

/-- The specification's result of core `c`'s arguments as launched, the weight arrays the reference's stages. -/
def spec (c : Dev nD) : Cert.Spec.SX.Idx → EReal :=
  Cert.Spec.out (m ((c : Thread nD τ).loc main_arg0))
    (Cert.ReferenceIdeal.Read.val_main_v14 (F := Ideal) (m ((c : Thread nD τ).loc main_arg1)) (m ((c : Thread nD τ).loc main_arg4))
      (m ((c : Thread nD τ).loc main_arg7)) (m ((c : Thread nD τ).loc main_arg8)))
    (Cert.ReferenceIdeal.Read.val_main_v29 (F := Ideal) (m ((c : Thread nD τ).loc main_arg2)) (m ((c : Thread nD τ).loc main_arg5))
      (m ((c : Thread nD τ).loc main_arg9)) (m ((c : Thread nD τ).loc main_arg10)))
    (Cert.ReferenceIdeal.Read.val_main_v44 (F := Ideal) (m ((c : Thread nD τ).loc main_arg3)) (m ((c : Thread nD τ).loc main_arg6))
      (m ((c : Thread nD τ).loc main_arg11)) (m ((c : Thread nD τ).loc main_arg12)))

/-- What the second region's write-back leaves in the result array is the specification's result. -/
theorem kernel_result (c : Dev nD) : (dat1 (F := Ideal) (E2 m) c).arrAt 2 cfg1.N = spec m c := by
  rw [stage2_final (E2 m) c]
  funext j
  show Cert.Spec.downAt (E2 m c main_v49) (E2 m c main_v47) (j 0) (j 1) = _
  rw [E2_hidden m c, E2_wd m c, stage1_final (E1 m) c, E1_x m c, E1_wg m c, E1_wu m c, E1_wd m c]
  rfl

end Cert.KernelIdeal.Val

end
-- ==== Proof.Val.Ref.lean ====
/- The reference's result, at the exact instance, is the specification's function of its arguments: its two first
   products contract the activations' columns against a TRANSPOSED weight array (so entry (i, h) of the weights meets
   column h of the activations), its silu is spelt x · (1 / (1 + e^(−x))), which is x · logistic x, and its last product
   contracts the 14336 intermediate columns against the transposed down weights. The three de-quantised weight arrays
   enter only as whole arrays: what they hold is never opened. -/
import proofs.«128673_j42176578847199_1_alg».proof.Proof.RefImports
import proofs.«128673_j42176578847199_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-- The word 0x3F800000 is the real number one. -/
private theorem one_word : Ideal.ofBits .f32 0x3F800000#32 = 1 := by
  simp [Ideal.ofBits, Ideal.ieee, -EReal.coe_mul]; norm_num

/-- A product of the activations against a transposed [14336, 4096] array `w`, at (b, i): row b of the activations
    against row i of `w`. The two first products of the reference are this at the gate and at the up weights. -/
private theorem proj_of_transposed (x : S64x4096.Idx → EReal) (w : S14336x4096.Idx → EReal) (b : Fin 64) (i : Fin 14336) :
    ∑ k : Fin 4096, x (lidx_main_v46 (ix2 b i) k) * w (idx_main_v45 (ridx_main_v46 (ix2 b i) k))
      = Cert.Spec.proj x w b i := by
  unfold Cert.Spec.proj
  refine Finset.sum_congr rfl fun k _ => ?_
  have e1 : lidx_main_v46 (ix2 b i) k = ix2 b k :=
    funext fun a => Fin.ext (by match a with | ⟨0, _⟩ => rfl | ⟨1, _⟩ => rfl)
  have e2 : idx_main_v45 (ridx_main_v46 (ix2 b i) k) = ix2 i k :=
    funext fun a => Fin.ext (by match a with | ⟨0, _⟩ => rfl | ⟨1, _⟩ => rfl)
  rw [e1, e2]

/-- The gate product at (b, i). -/
private theorem gate_at (x0 : (⟨S64x4096, .f32⟩ : BufTy).Contents (Elt Ideal)) (x1 : (⟨S4096, .f32⟩ : BufTy).Contents (Elt Ideal))
    (x4 : (⟨S14336x4096, .i32⟩ : BufTy).Contents (Elt Ideal)) (x7 : (⟨S14336, .f32⟩ : BufTy).Contents (Elt Ideal))
    (x8 : (⟨S4096, .f32⟩ : BufTy).Contents (Elt Ideal)) (b : Fin 64) (i : Fin 14336) :
    val_main_v46 (F := Ideal) x0 x1 x4 x7 x8 (ix2 b i)
      = Cert.Spec.proj x0 (val_main_v14 (F := Ideal) x1 x4 x7 x8) b i := by
  rw [val_main_v46_apply]
  simp only [val_main_v45_apply]
  generalize val_main_v14 (F := Ideal) x1 x4 x7 x8 = wg
  exact proj_of_transposed x0 wg b i

/-- The up product at (b, i). -/
private theorem up_at (x0 : (⟨S64x4096, .f32⟩ : BufTy).Contents (Elt Ideal)) (x2 : (⟨S4096, .f32⟩ : BufTy).Contents (Elt Ideal))
    (x5 : (⟨S14336x4096, .i32⟩ : BufTy).Contents (Elt Ideal)) (x9 : (⟨S14336, .f32⟩ : BufTy).Contents (Elt Ideal))
    (x10 : (⟨S4096, .f32⟩ : BufTy).Contents (Elt Ideal)) (b : Fin 64) (i : Fin 14336) :
    val_main_v49 (F := Ideal) x0 x2 x5 x9 x10 (ix2 b i)
      = Cert.Spec.proj x0 (val_main_v29 (F := Ideal) x2 x5 x9 x10) b i := by
  rw [val_main_v49_apply]
  simp only [val_main_v48_apply]
  generalize val_main_v29 (F := Ideal) x2 x5 x9 x10 = wu
  exact proj_of_transposed x0 wu b i

/-- The reference's silu factor at (b, i): one over one plus the exponential of minus the gate is the logistic of the gate. -/
private theorem silu_at (x0 : (⟨S64x4096, .f32⟩ : BufTy).Contents (Elt Ideal)) (x1 : (⟨S4096, .f32⟩ : BufTy).Contents (Elt Ideal))
    (x4 : (⟨S14336x4096, .i32⟩ : BufTy).Contents (Elt Ideal)) (x7 : (⟨S14336, .f32⟩ : BufTy).Contents (Elt Ideal))
    (x8 : (⟨S4096, .f32⟩ : BufTy).Contents (Elt Ideal)) (j : S64x14336.Idx) :
    val_main_call0_v5 (F := Ideal) x0 x1 x4 x7 x8 j = Ideal.logistic (val_main_v46 (F := Ideal) x0 x1 x4 x7 x8 j) := by
  rw [val_main_call0_v5_apply, val_main_call0_v4_apply, val_main_call0_cst_0_apply, val_main_call0_v3_apply,
    val_main_call0_v2_apply, val_main_call0_cst_apply, val_main_call0_v1_apply, val_main_call0_v0_apply]
  generalize val_main_v46 (F := Ideal) x0 x1 x4 x7 x8 j = g
  simp only [Ideal.ofBits_def, one_word, Ideal.hostDivf_def, Ideal.addf_def, Ideal.hostUnary_exp_def, Ideal.hostNegf_def,
    Ideal.negf_def]
  rfl

/-- The hidden value of the reference at (b, i). -/
private theorem hidden_at (x0 : (⟨S64x4096, .f32⟩ : BufTy).Contents (Elt Ideal)) (x1 x2 : (⟨S4096, .f32⟩ : BufTy).Contents (Elt Ideal))
    (x4 x5 : (⟨S14336x4096, .i32⟩ : BufTy).Contents (Elt Ideal)) (x7 : (⟨S14336, .f32⟩ : BufTy).Contents (Elt Ideal))
    (x8 : (⟨S4096, .f32⟩ : BufTy).Contents (Elt Ideal)) (x9 : (⟨S14336, .f32⟩ : BufTy).Contents (Elt Ideal))
    (x10 : (⟨S4096, .f32⟩ : BufTy).Contents (Elt Ideal)) (b : Fin 64) (i : Fin 14336) :
    val_main_v50 (F := Ideal) x0 x1 x2 x4 x5 x7 x8 x9 x10 (ix2 b i)
      = Cert.Spec.hiddenAt x0 (val_main_v14 (F := Ideal) x1 x4 x7 x8) (val_main_v29 (F := Ideal) x2 x5 x9 x10) b i := by
  rw [val_main_v50_apply, val_main_v47_apply, silu_at, gate_at, up_at]
  rfl

/-- The reference's last stage is the specification's result of the activations and the three weight stages. -/
theorem ref_result (x0 : (⟨S64x4096, .f32⟩ : BufTy).Contents (Elt Ideal)) (x1 x2 x3 : (⟨S4096, .f32⟩ : BufTy).Contents (Elt Ideal))
    (x4 x5 : (⟨S14336x4096, .i32⟩ : BufTy).Contents (Elt Ideal)) (x6 : (⟨S4096x14336, .i32⟩ : BufTy).Contents (Elt Ideal))
    (x7 : (⟨S14336, .f32⟩ : BufTy).Contents (Elt Ideal)) (x8 : (⟨S4096, .f32⟩ : BufTy).Contents (Elt Ideal))
    (x9 : (⟨S14336, .f32⟩ : BufTy).Contents (Elt Ideal)) (x10 x11 : (⟨S4096, .f32⟩ : BufTy).Contents (Elt Ideal))
    (x12 : (⟨S14336, .f32⟩ : BufTy).Contents (Elt Ideal)) :
    val_main_v52 (F := Ideal) x0 x1 x2 x3 x4 x5 x6 x7 x8 x9 x10 x11 x12
      = Cert.Spec.out x0 (val_main_v14 (F := Ideal) x1 x4 x7 x8) (val_main_v29 (F := Ideal) x2 x5 x9 x10)
          (val_main_v44 (F := Ideal) x3 x6 x11 x12) := by
  funext j
  obtain ⟨b, n, rfl⟩ : ∃ (b : Fin 64) (n : Fin 4096), j = ix2 b n := ⟨j 0, j 1, eq_ix2 j⟩
  rw [Cert.Spec.out_ix2]
  unfold Cert.Spec.outAt Cert.Spec.downAt
  rw [val_main_v52_apply]
  refine Finset.sum_congr rfl fun i _ => ?_
  have e1 : lidx_main_v52 (ix2 b n) i = ix2 b i :=
    funext fun a => Fin.ext (by match a with | ⟨0, _⟩ => rfl | ⟨1, _⟩ => rfl)
  have e2 : idx_main_v51 (ridx_main_v52 (ix2 b n) i) = ix2 n i :=
    funext fun a => Fin.ext (by match a with | ⟨0, _⟩ => rfl | ⟨1, _⟩ => rfl)
  rw [val_main_v51_apply, e1, e2, hidden_at, Cert.Spec.hidden_ix2]

end Cert.ReferenceIdeal.RefValue

end
-- ==== Proof.lean ====
/- The proof of the certificate's claim. Both programs compute, on the extended reals, the same function of the
   arguments: with Wg, Wu, Wd the three de-quantised weight arrays (the same host operations of the same arguments in
   both programs, never opened), hidden (b, i) = silu (∑ h, x (b, h) · Wg (i, h)) · (∑ h, x (b, h) · Wu (i, h)) and
   result (b, n) = ∑ i, hidden (b, i) · Wd (n, i). The kernel computes hidden in 28 tiles of 512 columns (first
   pallas_call) and the result as a running total over those tiles kept in a scratch buffer (second pallas_call); the
   reference computes each product whole against a transposed weight array. Regrouping the finite sum by tiles uses only
   that addition is commutative and associative, so the precondition is never opened.
   The frames: each program's run is the host operations and then its two pipeline regions; every argument array is no
   region's array and is written by no host operation, so it ends as launched. The idealization rewrote nothing. -/
import proofs.«128673_j42176578847199_1_alg».proof.Defs
import proofs.«128673_j42176578847199_1_alg».proof.Proof.Gen.Kernel
import proofs.«128673_j42176578847199_1_alg».proof.Proof.Gen.KernelIdeal
import proofs.«128673_j42176578847199_1_alg».proof.Proof.Gen.ReferenceIdeal
import proofs.«128673_j42176578847199_1_alg».proof.Proof.Gen.Pre_finite_inputs
import proofs.«128673_j42176578847199_1_alg».proof.Proof.K.Run
import proofs.«128673_j42176578847199_1_alg».proof.Proof.KI.Run
import proofs.«128673_j42176578847199_1_alg».proof.Proof.Val.Final
import proofs.«128673_j42176578847199_1_alg».proof.Proof.Val.Ref
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both runs end with the result array at the specification's function of the arguments, which agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Val.spec m c, ?_, ?_⟩
  · exact (θ_run Cert.KernelIdeal.defs _ _).mono (fun _ h c => ⟨(h c).1.trans (Cert.KernelIdeal.Val.kernel_result m c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v52_eq, Cert.ReferenceIdeal.RefValue.ref_result,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2.1, (hagree c).2.2.2.2.2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
